-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel

variable [Facts]

def fn_part1 {F : FTy → Type} [FloatOps F] (main_arg4 : FVec F S4x16x1024x64 .f32) (main_arg5 : FVec F S4x16x1024x64 .f32) (main_v13 : IVec S_ 1) (main_v16 : IVec S4x16x1024x64 1) : IVec S_ 1 :=
  let main_c_5 : IVec S_ 1 := constantI S_ 1 1#1
  let main_v17 : IVec S_ 1 := (fun x v => Host.reduce IntOp.andi x v reducesTo_S4x16x1024x64_S_d0_1_2_3 h_S_) main_v16 main_c_5
  let main_v18 : IVec S_ 1 := andi main_v13 main_v17
  let main_v19 : FVec F S4x16x1024x64 .f32 := Host.absf main_arg4
  let main_cst_6 : FVec F S_ .f32 := constant S_ .f32 0x7F800000#32
  let main_v20 : FVec F S4x16x1024x64 .f32 := broadcastInDim S4x16x1024x64 ![] bcast_S_S4x16x1024x64 main_cst_6
  let main_v21 : IVec S4x16x1024x64 1 := cmpf .olt main_v19 main_v20
  let main_c_7 : IVec S_ 1 := constantI S_ 1 1#1
  let main_v22 : IVec S_ 1 := (fun x v => Host.reduce IntOp.andi x v reducesTo_S4x16x1024x64_S_d0_1_2_3 h_S_) main_v21 main_c_7
  let main_v23 : IVec S_ 1 := andi main_v18 main_v22
  let main_v24 : FVec F S4x16x1024x64 .f32 := Host.absf main_arg5
  let main_cst_8 : FVec F S_ .f32 := constant S_ .f32 0x7F800000#32
  let main_v25 : FVec F S4x16x1024x64 .f32 := broadcastInDim S4x16x1024x64 ![] bcast_S_S4x16x1024x64 main_cst_8
  let main_v26 : IVec S4x16x1024x64 1 := cmpf .olt main_v24 main_v25
  let main_c_9 : IVec S_ 1 := constantI S_ 1 1#1
  let main_v27 : IVec S_ 1 := (fun x v => Host.reduce IntOp.andi x v reducesTo_S4x16x1024x64_S_d0_1_2_3 h_S_) main_v26 main_c_9
  let main_v28 : IVec S_ 1 := andi main_v23 main_v27
  main_v28

def fn {F : FTy → Type} [FloatOps F] (main_arg0 : FVec F S4x16x1024x64 .f32) (main_arg1 : FVec F S4x16x1024x64 .f32) (main_arg2 : FVec F S4x16x1024x64 .f32) (main_arg3 : FVec F S4x16x1024x64 .f32) (main_arg4 : FVec F S4x16x1024x64 .f32) (main_arg5 : FVec F S4x16x1024x64 .f32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x16x1024x64 .f32 := Host.absf main_arg3
  let main_cst_4 : FVec F S_ .f32 := constant S_ .f32 0x7F800000#32
  let main_v15 : FVec F S4x16x1024x64 .f32 := broadcastInDim S4x16x1024x64 ![] bcast_S_S4x16x1024x64 main_cst_4
  let main_v16 : IVec S4x16x1024x64 1 := cmpf .olt main_v14 main_v15
  fn_part1 (F := F) main_arg4 main_arg5 main_v13 main_v16
-- ==== Kernel.lean ====
abbrev S4x16x1024x64 : Shape := ⟨4, ![4, 16, 1024, 64]⟩
abbrev S64x1024x64 : Shape := ⟨3, ![64, 1024, 64]⟩
abbrev S64x1024x128 : Shape := ⟨3, ![64, 1024, 128]⟩
abbrev S2x1024x64 : Shape := ⟨3, ![2, 1024, 64]⟩
abbrev S2x1024x128 : Shape := ⟨3, ![2, 1024, 128]⟩
abbrev S2x1024x1024 : Shape := ⟨3, ![2, 1024, 1024]⟩
abbrev S2x1024 : Shape := ⟨2, ![2, 1024]⟩
abbrev S2x1024x1 : Shape := ⟨3, ![2, 1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x64, .f32⟩
  | .hbm, ⟨4, _⟩ => ⟨S4x16x1024x64, .f32⟩
  | .hbm, ⟨5, _⟩ => ⟨S4x16x1024x64, .f32⟩
  | .hbm, ⟨6, _⟩ => ⟨S64x1024x64, .f32⟩
  | .hbm, ⟨7, _⟩ => ⟨S64x1024x64, .f32⟩
  | .hbm, ⟨8, _⟩ => ⟨S64x1024x64, .f32⟩
  | .hbm, ⟨9, _⟩ => ⟨S64x1024x64, .f32⟩
  | .hbm, ⟨10, _⟩ => ⟨S64x1024x64, .f32⟩
  | .hbm, ⟨11, _⟩ => ⟨S64x1024x64, .f32⟩
  | .hbm, ⟨12, _⟩ => ⟨S64x1024x128, .f32⟩
  | .hbm, ⟨13, _⟩ => ⟨S64x1024x64, .f32⟩
  | .hbm, ⟨14, _⟩ => ⟨S4x16x1024x64, .f32⟩
  | .hbm, ⟨15, _⟩ => ⟨S64x1024x64, .f32⟩
  | .hbm, ⟨16, _⟩ => ⟨S4x16x1024x64, .f32⟩
  | .local _ .vmem, ⟨0, _⟩ => ⟨S2x1024x64, .f32⟩
  | .local _ .vmem, ⟨1, _⟩ => ⟨S2x1024x64, .f32⟩
  | .local _ .vmem, ⟨2, _⟩ => ⟨S2x1024x64, .f32⟩
  | .local _ .vmem, ⟨3, _⟩ => ⟨S2x1024x64, .f32⟩
  | .local _ .vmem, ⟨4, _⟩ => ⟨S2x1024x64, .f32⟩
  | .local _ .vmem, ⟨5, _⟩ => ⟨S2x1024x64, .f32⟩
  | .local _ .vmem, ⟨6, _⟩ => ⟨S2x1024x64, .f32⟩
  | .local _ .vmem, ⟨7, _⟩ => ⟨S2x1024x64, .f32⟩
  | .local _ .vmem, ⟨8, _⟩ => ⟨S2x1024x64, .f32⟩
  | .local _ .vmem, ⟨9, _⟩ => ⟨S2x1024x64, .f32⟩
  | .local _ .vmem, ⟨10, _⟩ => ⟨S2x1024x64, .f32⟩
  | .local _ .vmem, ⟨11, _⟩ => ⟨S2x1024x64, .f32⟩
  | .local _ .vmem, ⟨12, _⟩ => ⟨S2x1024x128, .f32⟩
  | .local _ .vmem, ⟨13, _⟩ => ⟨S2x1024x128, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x16x1024x64_S64x1024x64 : S4x16x1024x64.ShapeCasts S64x1024x64
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2x1024x64 : S2x1024x64.ShapeCasts S2x1024x64
  concatenates_S2x1024x64_S2x1024x64_S2x1024x128_d2 : Shape.Concatenates [S2x1024x64, S2x1024x64] S2x1024x128 2
  bitsLt_bf16_f32 : FTy.bits .bf16 < FTy.bits .f32
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  inb_S2x1024x128_S2x1024x128_0_0_0 : ∀ a, (![0, 0, 0] : Fin 3 → Nat) a + S2x1024x128.size a ≤ S2x1024x128.size a
  h_S2x1024x128 : 0 < S2x1024x128.numel
  slices_S64x1024x128_S64x1024x64_0_0_0 : S64x1024x128.Slices ![0, 0, 0] S64x1024x64
  shapeCasts_S64x1024x64_S4x16x1024x64 : S64x1024x64.ShapeCasts S4x16x1024x64
  slices_S64x1024x128_S64x1024x64_0_0_64 : S64x1024x128.Slices ![0, 0, 64] S64x1024x64
  dot_S2x1024x128_S2x1024x128_S2x1024x1024_2_2_1_1_0_0_wf : DotDims.WF S2x1024x128 S2x1024x128 S2x1024x1024 [2] [2] [1] [1] [0] [0]
  dot_S2x1024x1024_S2x1024x128_S2x1024x128_2_1_1_2_0_0_wf : DotDims.WF S2x1024x1024 S2x1024x128 S2x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S64x1024x64.size a
  hwx0_0 : ∀ i : grid0.Coords, EltTy.bits .f32 = 32 ∨ (Rect.block (s := S64x1024x64) S2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S64x1024x64.size a
  hwx0_1 : ∀ i : grid0.Coords, EltTy.bits .f32 = 32 ∨ (Rect.block (s := S64x1024x64) S2x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S64x1024x64.size a
  hwx0_2 : ∀ i : grid0.Coords, EltTy.bits .f32 = 32 ∨ (Rect.block (s := S64x1024x64) S2x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x64.size a ≤ S64x1024x64.size a
  hwx0_3 : ∀ i : grid0.Coords, EltTy.bits .f32 = 32 ∨ (Rect.block (s := S64x1024x64) S2x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x64.size a ≤ S64x1024x64.size a
  hwx0_4 : ∀ i : grid0.Coords, EltTy.bits .f32 = 32 ∨ (Rect.block (s := S64x1024x64) S2x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024x64.size a ≤ S64x1024x64.size a
  hwx0_5 : ∀ i : grid0.Coords, EltTy.bits .f32 = 32 ∨ (Rect.block (s := S64x1024x64) S2x1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1024x128.size a ≤ S64x1024x128.size a
  hwx0_6 : ∀ i : grid0.Coords, EltTy.bits .f32 = 32 ∨ (Rect.block (s := S64x1024x128) S2x1024x128.size (cc0_transform_6 i) (hinb0_6 i)).WholeWords (EltTy.packing .f32)

variable [Facts₀]

def dot_S2x1024x128_S2x1024x128_S2x1024x1024_2_2_1_1_0_0 : DotDims S2x1024x128 S2x1024x128 S2x1024x1024 where
  lhsContracting := [2]
  rhsContracting := [2]
  lhsNonContracting := [1]
  rhsNonContracting := [1]
  lhsBatch := [0]
  rhsBatch := [0]
  wf := dot_S2x1024x128_S2x1024x128_S2x1024x1024_2_2_1_1_0_0_wf
def dot_S2x1024x1024_S2x1024x128_S2x1024x128_2_1_1_2_0_0 : DotDims S2x1024x1024 S2x1024x128 S2x1024x128 where
  lhsContracting := [2]
  rhsContracting := [1]
  lhsNonContracting := [1]
  rhsNonContracting := [2]
  lhsBatch := [0]
  rhsBatch := [0]
  wf := dot_S2x1024x1024_S2x1024x128_S2x1024x128_2_1_1_2_0_0_wf

abbrev win0_0 : Pipeline.Window sig grid0 :=
  Pipeline.Window.ofSpec (Memref.whole main_v0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x64, .f32⟩
  | .hbm, ⟨4, _⟩ => ⟨S4x16x1024x64, .f32⟩
  | .hbm, ⟨5, _⟩ => ⟨S4x16x1024x64, .f32⟩
  | .hbm, ⟨6, _⟩ => ⟨S4x16x1024x1024, .f32⟩
  | .hbm, ⟨7, _⟩ => ⟨S4x16x1024x1024, .f32⟩
  | .hbm, ⟨8, _⟩ => ⟨S4x16x1024x1024, .f32⟩
  | .hbm, ⟨9, _⟩ => ⟨S_, .f32⟩
  | .hbm, ⟨10, _⟩ => ⟨S4x16x1024x1024, .f32⟩
  | .hbm, ⟨11, _⟩ => ⟨S4x16x1024x1024, .f32⟩
  | .hbm, ⟨12, _⟩ => ⟨S_, .f32⟩
  | .hbm, ⟨13, _⟩ => ⟨S4x16x1024x1024, .f32⟩
  | .hbm, ⟨14, _⟩ => ⟨S4x16x1024x1024, .f32⟩
  | .hbm, ⟨15, _⟩ => ⟨S_, .f32⟩
  | .hbm, ⟨16, _⟩ => ⟨S4x16x1024, .f32⟩
  | .hbm, ⟨17, _⟩ => ⟨S_, .f32⟩
  | .hbm, ⟨18, _⟩ => ⟨S4x16x1024, .f32⟩
  | .hbm, ⟨19, _⟩ => ⟨S4x16x1024, .f32⟩
  | .hbm, ⟨20, _⟩ => ⟨S4x16x1024x1, .f32⟩
  | .hbm, ⟨21, _⟩ => ⟨S4x16x1024x1024, .f32⟩
  | .hbm, ⟨22, _⟩ => ⟨S4x16x1024x1024, .f32⟩
  | .hbm, ⟨23, _⟩ => ⟨S4x16x1024x1024, .f32⟩
  | .hbm, ⟨24, _⟩ => ⟨S_, .f32⟩
  | .hbm, ⟨25, _⟩ => ⟨S4x16x1024, .f32⟩
  | .hbm, ⟨26, _⟩ => ⟨S4x16x1024x1, .f32⟩
  | .hbm, ⟨27, _⟩ => ⟨S4x16x1024x1024, .f32⟩
  | .hbm, ⟨28, _⟩ => ⟨S4x16x1024x1024, .f32⟩
  | .hbm, ⟨29, _⟩ => ⟨S4x16x1024x64, .f32⟩
  | .hbm, ⟨30, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Spec.lean ====
/-
  Two-stream attention, one head at a time, over plain coordinates.

  A head is 1024 positions of 64 features. Two streams (x and y) each have a query, key and value head. The
  attention weights are shared: the score of positions (s, t) is the sum of the two streams' query–key products,
  scaled by 1/2 and by 1/8, and the weights are the softmax of a row of scores. Each stream's output is the
  weighted sum of its own values.

  Two ways to write this are defined here.
  * FUSED: the two streams' features stand side by side (128 features a position), the score is ONE product over
    128 features scaled once by 1/16, the softmax multiplies by the reciprocal of the row sum, and ONE weighted sum
    over the side-by-side values gives both outputs, the first in features 0..63 and the second in 64..127.
  * PLAIN: the two 64-feature products are added, scaled by 1/2 and then 1/8; the row maximum is taken once more
    against −∞; the softmax divides by the row sum (counted from 0); the two outputs are two weighted sums.

  They are the same function where the queries and keys are real numbers: a sum over 128 side-by-side features is
  the two sums over 64; (a · 1/2) · 1/8 = a · 1/16; max(−∞, m) = m; and p · (1 / l) = p / l once l ≠ 0, which holds
  because every exponential of a real is positive. Finiteness is used only for that last step.
-/
import Idealize.ShloMosaic.PureOps.Ideal
import Idealize.ShloMosaic.PureOps.Ideal.Laws
import Idealize.ShloMosaic.Lib.IdealHost

noncomputable section

namespace Cert.TwoStream

open Idealize.ShloMosaic

/-- One head: 1024 positions of 64 features. -/
abbrev Head := Fin 1024 → Fin 64 → EReal

/-- Head `(b, h)` of a [4, 16, 1024, 64] array: its 1024 positions of 64 features. -/
def head4 (x : (⟨4, ![4, 16, 1024, 64]⟩ : Shape).Idx → EReal) (b : Fin 4) (h : Fin 16) : Head :=
  fun s d => x (ValueIdx.ix4 b h s d)

/-- Head `n` of an [N, 1024, 64] array. -/
def head3 {N : Nat} (x : (⟨3, ![N, 1024, 64]⟩ : Shape).Idx → EReal) (n : Fin N) : Head :=
  fun s d => x (ValueIdx.ix3 n s d)

/-- Two heads' features side by side: 128 features a position, the first head's then the second's. -/
def side (a b : Head) (s : Fin 1024) (j : Fin 128) : EReal :=
  if h : j.val < 64 then a s ⟨j.val, h⟩ else b s ⟨j.val - 64, by omega⟩

/-! ## The fused form -/

section Fused
variable (q k v q' k' v' : Head)

/-- One product over the 128 side-by-side features, scaled by 1/16. -/
def scoreF (s t : Fin 1024) : EReal :=
  (∑ j : Fin 128, side q q' s j * side k k' t j) * Ideal.ofBits .f32 0x3D800000#32

/-- A row's largest score, counted from −∞. -/
def rowMaxF (s : Fin 1024) : EReal :=
  (Finset.univ : Finset (Fin 1024)).fold max (Ideal.ofBits .f32 0xFF800000#32) (fun t => scoreF q k q' k' s t)

/-- The exponential of a score less its row's largest. -/
def expF (s t : Fin 1024) : EReal := Ideal.exp (scoreF q k q' k' s t - rowMaxF q k q' k' s)

/-- A row's sum of exponentials. -/
def rowSumF (s : Fin 1024) : EReal := ∑ t : Fin 1024, expF q k q' k' s t

/-- The weight: the exponential times the reciprocal of the row sum. -/
def weightF (s t : Fin 1024) : EReal :=
  expF q k q' k' s t * Ideal.div (Ideal.ofBits .f32 0x3F800000#32) (rowSumF q k q' k' s)

/-- Both outputs at once: the weighted sum of the side-by-side values. -/
def outF (s : Fin 1024) (e : Fin 128) : EReal := ∑ t : Fin 1024, weightF q k q' k' s t * side v v' t e

end Fused

/-! ## The plain form -/

section Plain
variable (q k q' k' : Head)

/-- The two streams' products added, scaled by 1/2 and then by 1/8. -/
def scoreP (s t : Fin 1024) : EReal :=
  ((∑ d : Fin 64, q s d * k t d) + (∑ d : Fin 64, q' s d * k' t d)) * Ideal.ofBits .f32 0x3F000000#32
    * Ideal.ofBits .f32 0x3E000000#32

/-- A row's largest score counted from −∞, and once more against −∞. -/
def rowMaxP (s : Fin 1024) : EReal :=
  max (Ideal.ofBits .f32 0xFF800000#32)
    ((Finset.univ : Finset (Fin 1024)).fold max (Ideal.ofBits .f32 0xFF800000#32) (fun t => scoreP q k q' k' s t))

/-- The exponential of a score less its row's largest. -/
def expP (s t : Fin 1024) : EReal := Ideal.exp (scoreP q k q' k' s t - rowMaxP q k q' k' s)

/-- A row's sum of exponentials, counted from 0. -/
def rowSumP (s : Fin 1024) : EReal := Ideal.ofBits .f32 0x00000000#32 + ∑ t : Fin 1024, expP q k q' k' s t

/-- The weight: the exponential divided by the row sum. -/
def weightP (s t : Fin 1024) : EReal := Ideal.div (expP q k q' k' s t) (rowSumP q k q' k' s)

/-- One stream's output: the weighted sum of its values. -/
def outP (v : Head) (s : Fin 1024) (e : Fin 64) : EReal := ∑ t : Fin 1024, weightP q k q' k' s t * v t e

end Plain

end Cert.TwoStream

end
-- ==== Proof.KernelPayload.lean ====
/-
  The kernel body's one stored value, read at an index.

  At a grid point the body loads six blocks of two heads each (x and y streams' queries, keys, values), and stores
  one [2, 1024, 128] block. At (g, s, e) that block is the fused form of two-stream attention (Spec.lean) of head g
  of the six blocks: the features of the two streams stand side by side (a concatenation along the last axis), the
  first matrix product contracts the 128 features with the head as batch axis, the row maximum and the row sum run
  over the last axis and come back as columns, and the second product contracts the 1024 positions. The changes of
  float format are the identity on extended reals.
-/
import proofs.«404403_j7722351198463_3_alg».proof.Proof.Gen.KernelIdeal.Skeleton
import proofs.«404403_j7722351198463_3_alg».proof.Proof.Spec
import Idealize.ShloMosaic.Lib.Pipeline.Value
import Idealize.ShloMosaic.Lib.ValueIdx
import Idealize.ShloMosaic.PureOps.Ideal.Laws

noncomputable section

namespace Cert.KernelValue

open Idealize.ShloMosaic Idealize.ShloMosaic.ValueIdx Cert.KernelIdeal Cert.KernelIdeal.Gen Cert.TwoStream

/-! ## Two blocks side by side -/

/-- A concatenation of two [2, 1024, 64] blocks along the features, at (g, s, j), is head g of the two blocks side
    by side. -/
theorem cat_apply {φ : FTy} (a b : FVec Ideal S2x1024x64 φ) (g : Fin 2) (s : Fin 1024) (j : Fin 128) :
    concatenate S2x1024x128 2 [⟨S2x1024x64, a⟩, ⟨S2x1024x64, b⟩] Facts₀.concatenates_S2x1024x64_S2x1024x64_S2x1024x128_d2 (ix3 g s j)
      = side (head3 a g) (head3 b g) s j := by
  unfold side
  by_cases h : j.val < 64
  · rw [dif_pos h]
    exact concatenate_pair_apply_left 2 a b _ (ix3 g s j) rfl (ix3 g s ⟨j.val, h⟩)
      (fun c => match c with | ⟨0, _⟩ => rfl | ⟨1, _⟩ => rfl | ⟨2, _⟩ => rfl)
  · rw [dif_neg h]
    exact concatenate_pair_apply_right 2 a b _ (ix3 g s j) rfl rfl (ix3 g s ⟨j.val - 64, by have := j.isLt; omega⟩)
      (fun c => match c with
        | ⟨0, _⟩ => fun _ => rfl
        | ⟨1, _⟩ => fun _ => rfl
        | ⟨2, _⟩ => fun hc => absurd rfl hc)
      (by show j.val - 64 + 64 = j.val; omega)

/-! ## The first product: scores -/

theorem lhsA_0 (i : S2x1024x1024.Idx) (q : dot_S2x1024x128_S2x1024x128_S2x1024x1024_2_2_1_1_0_0.contr.Idx) :
    (dot_S2x1024x128_S2x1024x128_S2x1024x1024_2_2_1_1_0_0.lhsIdx i q 0).val = (i 0).val := by
  unfold DotDims.lhsIdx
  rw [dif_pos (show (0 : Fin S2x1024x128.rank) ∈ dot_S2x1024x128_S2x1024x128_S2x1024x1024_2_2_1_1_0_0.lhsBatch by decide)]
  rfl
theorem lhsA_1 (i : S2x1024x1024.Idx) (q : dot_S2x1024x128_S2x1024x128_S2x1024x1024_2_2_1_1_0_0.contr.Idx) :
    (dot_S2x1024x128_S2x1024x128_S2x1024x1024_2_2_1_1_0_0.lhsIdx i q 1).val = (i 1).val := by
  unfold DotDims.lhsIdx
  rw [dif_neg (show ¬(1 : Fin S2x1024x128.rank) ∈ dot_S2x1024x128_S2x1024x128_S2x1024x1024_2_2_1_1_0_0.lhsBatch by decide), dif_pos (show (1 : Fin S2x1024x128.rank) ∈ dot_S2x1024x128_S2x1024x128_S2x1024x1024_2_2_1_1_0_0.lhsNonContracting by decide)]
  rfl
theorem lhsA_2 (i : S2x1024x1024.Idx) (q : dot_S2x1024x128_S2x1024x128_S2x1024x1024_2_2_1_1_0_0.contr.Idx) :
    (dot_S2x1024x128_S2x1024x128_S2x1024x1024_2_2_1_1_0_0.lhsIdx i q 2).val = (q ⟨0, by decide⟩).val :=
  dot_S2x1024x128_S2x1024x128_S2x1024x1024_2_2_1_1_0_0.lhsIdx_val_of_single rfl i q
theorem rhsA_0 (i : S2x1024x1024.Idx) (q : dot_S2x1024x128_S2x1024x128_S2x1024x1024_2_2_1_1_0_0.contr.Idx) :
    (dot_S2x1024x128_S2x1024x128_S2x1024x1024_2_2_1_1_0_0.rhsIdx i q 0).val = (i 0).val := by
  unfold DotDims.rhsIdx
  rw [dif_pos (show (0 : Fin S2x1024x128.rank) ∈ dot_S2x1024x128_S2x1024x128_S2x1024x1024_2_2_1_1_0_0.rhsBatch by decide)]
  rfl
theorem rhsA_1 (i : S2x1024x1024.Idx) (q : dot_S2x1024x128_S2x1024x128_S2x1024x1024_2_2_1_1_0_0.contr.Idx) :
    (dot_S2x1024x128_S2x1024x128_S2x1024x1024_2_2_1_1_0_0.rhsIdx i q 1).val = (i 2).val := by
  unfold DotDims.rhsIdx
  rw [dif_neg (show ¬(1 : Fin S2x1024x128.rank) ∈ dot_S2x1024x128_S2x1024x128_S2x1024x1024_2_2_1_1_0_0.rhsBatch by decide), dif_pos (show (1 : Fin S2x1024x128.rank) ∈ dot_S2x1024x128_S2x1024x128_S2x1024x1024_2_2_1_1_0_0.rhsNonContracting by decide)]
  rfl
theorem rhsA_2 (i : S2x1024x1024.Idx) (q : dot_S2x1024x128_S2x1024x128_S2x1024x1024_2_2_1_1_0_0.contr.Idx) :
    (dot_S2x1024x128_S2x1024x128_S2x1024x1024_2_2_1_1_0_0.rhsIdx i q 2).val = (q ⟨0, by decide⟩).val :=
  dot_S2x1024x128_S2x1024x128_S2x1024x1024_2_2_1_1_0_0.rhsIdx_val_of_single rfl i q

/-- The first product into the zero block, at (g, s, t): the sum over the 128 features of row s of the left block
    times row t of the right block, both of head g. -/
theorem scores_apply (A B : FVec Ideal S2x1024x128 .f32) (g : Fin 2) (s t : Fin 1024) :
    matmul dot_S2x1024x128_S2x1024x128_S2x1024x1024_2_2_1_1_0_0 (some .fp32) A B (constant S2x1024x1024 .f32 0x00000000#32) (ix3 g s t)
      = ∑ j : Fin 128, A (ix3 g s j) * B (ix3 g t j) := by
  simp only [matmul]
  rw [Ideal.matmul_constant_zero_apply, ← Equiv.sum_comp (contrEquiv1 dot_S2x1024x128_S2x1024x128_S2x1024x1024_2_2_1_1_0_0 128 rfl rfl).symm]
  refine Finset.sum_congr rfl fun k _ => ?_
  have hk := contrEquiv1_symm_val dot_S2x1024x128_S2x1024x128_S2x1024x1024_2_2_1_1_0_0 128 rfl rfl k
  have el : dot_S2x1024x128_S2x1024x128_S2x1024x1024_2_2_1_1_0_0.lhsIdx (ix3 g s t) ((contrEquiv1 dot_S2x1024x128_S2x1024x128_S2x1024x1024_2_2_1_1_0_0 128 rfl rfl).symm k) = ix3 g s k := funext fun a => Fin.ext (by
    match a with
    | ⟨0, _⟩ => exact lhsA_0 _ _
    | ⟨1, _⟩ => exact lhsA_1 _ _
    | ⟨2, _⟩ => exact (lhsA_2 _ _).trans hk)
  have er : dot_S2x1024x128_S2x1024x128_S2x1024x1024_2_2_1_1_0_0.rhsIdx (ix3 g s t) ((contrEquiv1 dot_S2x1024x128_S2x1024x128_S2x1024x1024_2_2_1_1_0_0 128 rfl rfl).symm k) = ix3 g t k := funext fun a => Fin.ext (by
    match a with
    | ⟨0, _⟩ => exact rhsA_0 _ _
    | ⟨1, _⟩ => exact rhsA_1 _ _
    | ⟨2, _⟩ => exact (rhsA_2 _ _).trans hk)
  rw [el, er]

/-! ## The second product: weighted values -/

theorem lhsB_0 (i : S2x1024x128.Idx) (q : dot_S2x1024x1024_S2x1024x128_S2x1024x128_2_1_1_2_0_0.contr.Idx) :
    (dot_S2x1024x1024_S2x1024x128_S2x1024x128_2_1_1_2_0_0.lhsIdx i q 0).val = (i 0).val := by
  unfold DotDims.lhsIdx
  rw [dif_pos (show (0 : Fin S2x1024x1024.rank) ∈ dot_S2x1024x1024_S2x1024x128_S2x1024x128_2_1_1_2_0_0.lhsBatch by decide)]
  rfl
theorem lhsB_1 (i : S2x1024x128.Idx) (q : dot_S2x1024x1024_S2x1024x128_S2x1024x128_2_1_1_2_0_0.contr.Idx) :
    (dot_S2x1024x1024_S2x1024x128_S2x1024x128_2_1_1_2_0_0.lhsIdx i q 1).val = (i 1).val := by
  unfold DotDims.lhsIdx
  rw [dif_neg (show ¬(1 : Fin S2x1024x1024.rank) ∈ dot_S2x1024x1024_S2x1024x128_S2x1024x128_2_1_1_2_0_0.lhsBatch by decide), dif_pos (show (1 : Fin S2x1024x1024.rank) ∈ dot_S2x1024x1024_S2x1024x128_S2x1024x128_2_1_1_2_0_0.lhsNonContracting by decide)]
  rfl
theorem lhsB_2 (i : S2x1024x128.Idx) (q : dot_S2x1024x1024_S2x1024x128_S2x1024x128_2_1_1_2_0_0.contr.Idx) :
    (dot_S2x1024x1024_S2x1024x128_S2x1024x128_2_1_1_2_0_0.lhsIdx i q 2).val = (q ⟨0, by decide⟩).val :=
  dot_S2x1024x1024_S2x1024x128_S2x1024x128_2_1_1_2_0_0.lhsIdx_val_of_single rfl i q
theorem rhsB_0 (i : S2x1024x128.Idx) (q : dot_S2x1024x1024_S2x1024x128_S2x1024x128_2_1_1_2_0_0.contr.Idx) :
    (dot_S2x1024x1024_S2x1024x128_S2x1024x128_2_1_1_2_0_0.rhsIdx i q 0).val = (i 0).val := by
  unfold DotDims.rhsIdx
  rw [dif_pos (show (0 : Fin S2x1024x128.rank) ∈ dot_S2x1024x1024_S2x1024x128_S2x1024x128_2_1_1_2_0_0.rhsBatch by decide)]
  rfl
theorem rhsB_1 (i : S2x1024x128.Idx) (q : dot_S2x1024x1024_S2x1024x128_S2x1024x128_2_1_1_2_0_0.contr.Idx) :
    (dot_S2x1024x1024_S2x1024x128_S2x1024x128_2_1_1_2_0_0.rhsIdx i q 1).val = (q ⟨0, by decide⟩).val :=
  dot_S2x1024x1024_S2x1024x128_S2x1024x128_2_1_1_2_0_0.rhsIdx_val_of_single rfl i q
theorem rhsB_2 (i : S2x1024x128.Idx) (q : dot_S2x1024x1024_S2x1024x128_S2x1024x128_2_1_1_2_0_0.contr.Idx) :
    (dot_S2x1024x1024_S2x1024x128_S2x1024x128_2_1_1_2_0_0.rhsIdx i q 2).val = (i 2).val := by
  unfold DotDims.rhsIdx
  rw [dif_neg (show ¬(2 : Fin S2x1024x128.rank) ∈ dot_S2x1024x1024_S2x1024x128_S2x1024x128_2_1_1_2_0_0.rhsBatch by decide), dif_pos (show (2 : Fin S2x1024x128.rank) ∈ dot_S2x1024x1024_S2x1024x128_S2x1024x128_2_1_1_2_0_0.rhsNonContracting by decide)]
  rfl

/-- The second product into the zero block, at (g, s, e): the sum over the 1024 positions of the weight of (s, t)
    times feature e of position t, both of head g. -/
theorem mix_apply {φ₁ φ₂ : FTy} (A : FVec Ideal S2x1024x1024 φ₁) (B : FVec Ideal S2x1024x128 φ₂) (g : Fin 2) (s : Fin 1024) (e : Fin 128) :
    matmul dot_S2x1024x1024_S2x1024x128_S2x1024x128_2_1_1_2_0_0 none A B (constant S2x1024x128 .f32 0x00000000#32) (ix3 g s e)
      = ∑ t : Fin 1024, A (ix3 g s t) * B (ix3 g t e) := by
  simp only [matmul]
  rw [Ideal.matmul_constant_zero_apply, ← Equiv.sum_comp (contrEquiv1 dot_S2x1024x1024_S2x1024x128_S2x1024x128_2_1_1_2_0_0 1024 rfl rfl).symm]
  refine Finset.sum_congr rfl fun k _ => ?_
  have hk := contrEquiv1_symm_val dot_S2x1024x1024_S2x1024x128_S2x1024x128_2_1_1_2_0_0 1024 rfl rfl k
  have el : dot_S2x1024x1024_S2x1024x128_S2x1024x128_2_1_1_2_0_0.lhsIdx (ix3 g s e) ((contrEquiv1 dot_S2x1024x1024_S2x1024x128_S2x1024x128_2_1_1_2_0_0 1024 rfl rfl).symm k) = ix3 g s k := funext fun a => Fin.ext (by
    match a with
    | ⟨0, _⟩ => exact lhsB_0 _ _
    | ⟨1, _⟩ => exact lhsB_1 _ _
    | ⟨2, _⟩ => exact (lhsB_2 _ _).trans hk)
  have er : dot_S2x1024x1024_S2x1024x128_S2x1024x128_2_1_1_2_0_0.rhsIdx (ix3 g s e) ((contrEquiv1 dot_S2x1024x1024_S2x1024x128_S2x1024x128_2_1_1_2_0_0 1024 rfl rfl).symm k) = ix3 g k e := funext fun a => Fin.ext (by
    match a with
    | ⟨0, _⟩ => exact rhsB_0 _ _
    | ⟨1, _⟩ => exact (rhsB_1 _ _).trans hk
    | ⟨2, _⟩ => exact rhsB_2 _ _)
  rw [el, er]

/-! ## Rows: maximum and sum over the last axis, and a column spread back over the row -/

/-- The maximum over the last axis, at row (g, s): the fold of max from the start value over that row. -/
theorem rowmax_apply (src : FVec Ideal S2x1024x1024 .f32) (g : Fin 2) (s : Fin 1024) :
    multiReduction .maximumf [2] S2x1024 src 0xFF800000#32 Facts₀.reduces_S2x1024x1024_S2x1024 (.inl rfl) rfl (ix2 g s)
      = (Finset.univ : Finset (Fin 1024)).fold max (Ideal.ofBits .f32 0xFF800000#32) (fun t => src (ix3 g s t)) := by
  refine (Ideal.multiReduction_maximumf_single src 0xFF800000#32 Facts₀.reduces_S2x1024x1024_S2x1024 (.inl rfl) rfl (ix2 g s)).trans ?_
  refine congrArg (fun f => (Finset.univ : Finset (Fin 1024)).fold max (Ideal.ofBits .f32 0xFF800000#32) f) (funext fun t => ?_)
  exact congrArg src (funext fun a => Fin.ext (by match a with | ⟨0, _⟩ => rfl | ⟨1, _⟩ => rfl | ⟨2, _⟩ => rfl))

/-- The sum over the last axis, at row (g, s): the sum over that row. -/
theorem rowsum_apply (src : FVec Ideal S2x1024x1024 .f32) (g : Fin 2) (s : Fin 1024) :
    multiReduction .add [2] S2x1024 src 0x00000000#32 Facts₀.reduces_S2x1024x1024_S2x1024 (.inl rfl) rfl (ix2 g s)
      = ∑ t : Fin 1024, src (ix3 g s t) := by
  refine (Ideal.multiReduction_add_single src 0x00000000#32 Facts₀.reduces_S2x1024x1024_S2x1024 (.inl rfl) rfl (ix2 g s)).trans ?_
  refine Finset.sum_congr rfl fun t _ => ?_
  exact congrArg src (funext fun a => Fin.ext (by match a with | ⟨0, _⟩ => rfl | ⟨1, _⟩ => rfl | ⟨2, _⟩ => rfl))

/-- A [2, 1024] array as a [2, 1024, 1] column, at (g, s, 0), is the array at (g, s). -/
theorem column_apply (w : FVec Ideal S2x1024 .f32) (g : Fin 2) (s : Fin 1024) :
    shapeCast S2x1024x1 w Facts₀.shapeCasts_S2x1024_S2x1024x1 (ix3 g s (0 : Fin 1)) = w (ix2 g s) :=
  shapeCast_apply w Facts₀.shapeCasts_S2x1024_S2x1024x1 (ix3 g s (0 : Fin 1)) (ix2 g s) (by
    rw [Shape.rowMajor_val_two, Shape.rowMajor_val_three]
    show g.val * 1024 + s.val = (g.val * 1024 + s.val) * 1 + 0
    omega)

/-- A [2, 1024, 1] column spread over 1024 places, at (g, s, t), is the column at (g, s, 0). -/
theorem spread_apply (u : FVec Ideal S2x1024x1 .f32) (g : Fin 2) (s t : Fin 1024) :
    broadcastTo S2x1024x1024 u Facts₀.broadcasts_S2x1024x1_S2x1024x1024 (ix3 g s t) = u (ix3 g s (0 : Fin 1)) :=
  broadcastTo_apply u Facts₀.broadcasts_S2x1024x1_S2x1024x1024 (ix3 g s t) (ix3 g s (0 : Fin 1)) (fun a => match a with
    | ⟨0, _⟩ => by show g.val = if (2 : Nat) = 1 then 0 else g.val; rw [if_neg (by decide)]
    | ⟨1, _⟩ => by show s.val = if (1024 : Nat) = 1 then 0 else s.val; rw [if_neg (by decide)]
    | ⟨2, _⟩ => by show 0 = if (1 : Nat) = 1 then 0 else t.val; rw [if_pos rfl])

/-! ## The body's value in three stages -/

section Stages
variable (x0 x1 x3 x4 : FVec Ideal S2x1024x64 .f32)

/-- The scaled scores of the two heads of a block. -/
def scoreV : FVec Ideal S2x1024x1024 .f32 :=
  mulf (matmul dot_S2x1024x128_S2x1024x128_S2x1024x1024_2_2_1_1_0_0 (some .fp32)
      (concatenate S2x1024x128 2 [⟨S2x1024x64, x0⟩, ⟨S2x1024x64, x3⟩] Facts₀.concatenates_S2x1024x64_S2x1024x64_S2x1024x128_d2)
      (concatenate S2x1024x128 2 [⟨S2x1024x64, x1⟩, ⟨S2x1024x64, x4⟩] Facts₀.concatenates_S2x1024x64_S2x1024x64_S2x1024x128_d2)
      (constant S2x1024x1024 .f32 0x00000000#32))
    (broadcast S2x1024x1024 (Scalar.ofBits .f32 0x3D800000#32))

theorem scoreV_apply (g : Fin 2) (s t : Fin 1024) :
    scoreV x0 x1 x3 x4 (ix3 g s t) = scoreF (head3 x0 g) (head3 x1 g) (head3 x3 g) (head3 x4 g) s t := by
  unfold scoreV scoreF
  rw [mulf_apply, scores_apply, broadcast_apply]
  refine congrArg₂ (· * ·) (Finset.sum_congr rfl fun j _ => ?_) rfl
  rw [cat_apply, cat_apply]

/-- The exponentials of the scores less their row's maximum. -/
def expV : FVec Ideal S2x1024x1024 .f32 :=
  exp (subf (scoreV x0 x1 x3 x4)
    (broadcastTo S2x1024x1024
      (shapeCast S2x1024x1
        (multiReduction .maximumf [2] S2x1024 (scoreV x0 x1 x3 x4) 0xFF800000#32 Facts₀.reduces_S2x1024x1024_S2x1024 (.inl rfl) rfl)
        Facts₀.shapeCasts_S2x1024_S2x1024x1)
      Facts₀.broadcasts_S2x1024x1_S2x1024x1024))

theorem expV_apply (g : Fin 2) (s t : Fin 1024) :
    expV x0 x1 x3 x4 (ix3 g s t) = expF (head3 x0 g) (head3 x1 g) (head3 x3 g) (head3 x4 g) s t := by
  unfold expV expF rowMaxF
  refine congrArg Ideal.exp ?_
  rw [subf_apply, spread_apply, column_apply, rowmax_apply, scoreV_apply]
  simp only [scoreV_apply]

/-- The weights: the exponentials times the reciprocal of their row's sum. -/
def weightV : FVec Ideal S2x1024x1024 .f32 :=
  mulf (expV x0 x1 x3 x4)
    (broadcastTo S2x1024x1024
      (divf (broadcast S2x1024x1 (Scalar.ofBits .f32 0x3F800000#32))
        (shapeCast S2x1024x1
          (multiReduction .add [2] S2x1024 (expV x0 x1 x3 x4) 0x00000000#32 Facts₀.reduces_S2x1024x1024_S2x1024 (.inl rfl) rfl)
          Facts₀.shapeCasts_S2x1024_S2x1024x1))
      Facts₀.broadcasts_S2x1024x1_S2x1024x1024)

theorem weightV_apply (g : Fin 2) (s t : Fin 1024) :
    weightV x0 x1 x3 x4 (ix3 g s t) = weightF (head3 x0 g) (head3 x1 g) (head3 x3 g) (head3 x4 g) s t := by
  unfold weightV weightF rowSumF
  rw [mulf_apply, spread_apply, divf_apply, broadcast_apply, column_apply, rowsum_apply, expV_apply]
  simp only [expV_apply]
  rfl

end Stages

/-- The body's stored value is the second product of the weights with the two value blocks side by side. -/
theorem pay_eq (x0 x1 x2 x3 x4 x5 : FVec Ideal S2x1024x64 .f32) :
    k0_pay1 (F := Ideal) x0 x1 x2 x3 x4 x5
      = matmul dot_S2x1024x1024_S2x1024x128_S2x1024x128_2_1_1_2_0_0 none
          (truncf .bf16 (weightV x0 x1 x3 x4) Facts₀.bitsLt_bf16_f32)
          (concatenate S2x1024x128 2 [⟨S2x1024x64, truncf .bf16 x2 Facts₀.bitsLt_bf16_f32⟩, ⟨S2x1024x64, truncf .bf16 x5 Facts₀.bitsLt_bf16_f32⟩] Facts₀.concatenates_S2x1024x64_S2x1024x64_S2x1024x128_d2)
          (constant S2x1024x128 .f32 0x00000000#32) := by
  unfold k0_pay1 weightV expV scoreV
  rw [shapeCast_self x0, shapeCast_self x1, shapeCast_self x2, shapeCast_self x3, shapeCast_self x4, shapeCast_self x5]

/-- The body's stored value at (g, s, e) is the fused form of head g of the six blocks. -/
theorem payload_apply (x0 x1 x2 x3 x4 x5 : FVec Ideal S2x1024x64 .f32) (g : Fin 2) (s : Fin 1024) (e : Fin 128) :
    k0_pay1 (F := Ideal) x0 x1 x2 x3 x4 x5 (ix3 g s e)
      = outF (head3 x0 g) (head3 x1 g) (head3 x2 g) (head3 x3 g) (head3 x4 g) (head3 x5 g) s e := by
  rw [pay_eq]
  refine (mix_apply _ _ g s e).trans ?_
  unfold outF
  refine Finset.sum_congr rfl fun t _ => ?_
  refine congrArg₂ (· * ·) ?_ ?_
  · exact weightV_apply x0 x1 x3 x4 g s t
  · exact cat_apply _ _ g t e

end Cert.KernelValue

end
-- ==== Proof.KernelValue.lean ====
/-
  From the body's stored block to the program's two results.

  The grid has 32 points. At point t every input window holds heads 2t and 2t + 1 of its [64, 1024, 64] array and
  the output window is written back to heads 2t and 2t + 1 of the [64, 1024, 128] array, so that array ends holding,
  at (n, s, e), the fused form (Spec.lean) of head n of the six staged arrays. The staged arrays are the arguments
  with the batch and head axes merged (n = 16 b + h); the two results are the first and the last 64 features of the
  wide array with the leading axis split again.
-/
import proofs.«404403_j7722351198463_3_alg».proof.Proof.Gen.KernelIdeal.Frame
import proofs.«404403_j7722351198463_3_alg».proof.Proof.KernelPayload
import Idealize.ShloMosaic.Lib.Pipeline.Value
import Idealize.ShloMosaic.Lib.StableHlo.Run

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.TwoStream

variable (m : (ℓ : Loc nD τ sig) → Buf (Elt Ideal) ℓ) (ρ : Dev nD → PrngReg)

theorem hz3 : (![0, 0, 0] : Fin 3 → Nat) = fun _ => 0 := funext fun a => by fin_cases a <;> rfl

/-! ## The index maps, decided over the grid -/

theorem idx_in0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx_in1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx_in2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx_in3 : ∀ t : Fin cfg0.N, win0_3.index t (0 : Fin 3) = t.val ∧ win0_3.index t (1 : Fin 3) = 0 ∧ win0_3.index t (2 : Fin 3) = 0 :=
  (by decide +kernel : ∀ t : Fin grid0.N, _)

theorem idx_in4 : ∀ t : Fin cfg0.N, win0_4.index t (0 : Fin 3) = t.val ∧ win0_4.index t (1 : Fin 3) = 0 ∧ win0_4.index t (2 : Fin 3) = 0 :=
  (by decide +kernel : ∀ t : Fin grid0.N, _)

theorem idx_in5 : ∀ t : Fin cfg0.N, win0_5.index t (0 : Fin 3) = t.val ∧ win0_5.index t (1 : Fin 3) = 0 ∧ win0_5.index t (2 : Fin 3) = 0 :=
  (by decide +kernel : ∀ t : Fin grid0.N, _)

theorem idx_out : ∀ t : Fin cfg0.N, win0_6.index t (0 : Fin 3) = t.val ∧ win0_6.index t (1 : Fin 3) = 0 ∧ win0_6.index t (2 : Fin 3) = 0 :=
  (by decide +kernel : ∀ t : Fin grid0.N, _)

/-- Every pair of heads is some point's. -/
theorem idx_onto : ∀ q : Fin 32, ∃ t : Fin cfg0.N, t.val = q.val :=
  (by decide +kernel : ∀ q : Fin 32, ∃ t : Fin grid0.N, t.val = q.val)

/-! ## The input blocks -/

/-- Window 0's block at point t is heads 2t and 2t + 1 of its array. -/
theorem blk_read0 (c : Dev nD) (t : Fin cfg0.N) (g : Fin 2) (s : Fin 1024) (d : Fin 64) (n : Fin 64)
    (hn : n.val = 2 * t.val + g.val) :
    (iblk m c 0 t : FVec Ideal S2x1024x64 .f32) (ix3 g s d) = (V m c main_v0 : FVec Ideal S64x1024x64 .f32) (ix3 n s d) := by
  obtain ⟨h0, h1, h2⟩ := idx_in0 t
  show V m c main_v0 (((cfg0.win 0).blk t).view.emb (ix3 g s d)) = V m c main_v0 (ix3 n s d)
  refine congrArg (V m c main_v0) (funext fun a => Fin.ext ?_)
  match a with
  | ⟨0, _⟩ => show win0_0.index t (0 : Fin 3) * 2 + 1 * g.val = n.val; rw [h0, hn]; omega
  | ⟨1, _⟩ => show win0_0.index t (1 : Fin 3) * 1024 + 1 * s.val = s.val; rw [h1]; omega
  | ⟨2, _⟩ => show win0_0.index t (2 : Fin 3) * 64 + 1 * d.val = d.val; rw [h2]; omega

theorem head_blk0 (c : Dev nD) (t : Fin cfg0.N) (g : Fin 2) (n : Fin 64) (hn : n.val = 2 * t.val + g.val) :
    head3 (iblk m c 0 t : FVec Ideal S2x1024x64 .f32) g = head3 (V m c main_v0 : FVec Ideal S64x1024x64 .f32) n :=
  funext fun s => funext fun d => blk_read0 m c t g s d n hn

/-- Window 1's block at point t is heads 2t and 2t + 1 of its array. -/
theorem blk_read1 (c : Dev nD) (t : Fin cfg0.N) (g : Fin 2) (s : Fin 1024) (d : Fin 64) (n : Fin 64)
    (hn : n.val = 2 * t.val + g.val) :
    (iblk m c 1 t : FVec Ideal S2x1024x64 .f32) (ix3 g s d) = (V m c main_v1 : FVec Ideal S64x1024x64 .f32) (ix3 n s d) := by
  obtain ⟨h0, h1, h2⟩ := idx_in1 t
  show V m c main_v1 (((cfg0.win 1).blk t).view.emb (ix3 g s d)) = V m c main_v1 (ix3 n s d)
  refine congrArg (V m c main_v1) (funext fun a => Fin.ext ?_)
  match a with
  | ⟨0, _⟩ => show win0_1.index t (0 : Fin 3) * 2 + 1 * g.val = n.val; rw [h0, hn]; omega
  | ⟨1, _⟩ => show win0_1.index t (1 : Fin 3) * 1024 + 1 * s.val = s.val; rw [h1]; omega
  | ⟨2, _⟩ => show win0_1.index t (2 : Fin 3) * 64 + 1 * d.val = d.val; rw [h2]; omega

theorem head_blk1 (c : Dev nD) (t : Fin cfg0.N) (g : Fin 2) (n : Fin 64) (hn : n.val = 2 * t.val + g.val) :
    head3 (iblk m c 1 t : FVec Ideal S2x1024x64 .f32) g = head3 (V m c main_v1 : FVec Ideal S64x1024x64 .f32) n :=
  funext fun s => funext fun d => blk_read1 m c t g s d n hn

/-- Window 2's block at point t is heads 2t and 2t + 1 of its array. -/
theorem blk_read2 (c : Dev nD) (t : Fin cfg0.N) (g : Fin 2) (s : Fin 1024) (d : Fin 64) (n : Fin 64)
    (hn : n.val = 2 * t.val + g.val) :
    (iblk m c 2 t : FVec Ideal S2x1024x64 .f32) (ix3 g s d) = (V m c main_v2 : FVec Ideal S64x1024x64 .f32) (ix3 n s d) := by
  obtain ⟨h0, h1, h2⟩ := idx_in2 t
  show V m c main_v2 (((cfg0.win 2).blk t).view.emb (ix3 g s d)) = V m c main_v2 (ix3 n s d)
  refine congrArg (V m c main_v2) (funext fun a => Fin.ext ?_)
  match a with
  | ⟨0, _⟩ => show win0_2.index t (0 : Fin 3) * 2 + 1 * g.val = n.val; rw [h0, hn]; omega
  | ⟨1, _⟩ => show win0_2.index t (1 : Fin 3) * 1024 + 1 * s.val = s.val; rw [h1]; omega
  | ⟨2, _⟩ => show win0_2.index t (2 : Fin 3) * 64 + 1 * d.val = d.val; rw [h2]; omega

theorem head_blk2 (c : Dev nD) (t : Fin cfg0.N) (g : Fin 2) (n : Fin 64) (hn : n.val = 2 * t.val + g.val) :
    head3 (iblk m c 2 t : FVec Ideal S2x1024x64 .f32) g = head3 (V m c main_v2 : FVec Ideal S64x1024x64 .f32) n :=
  funext fun s => funext fun d => blk_read2 m c t g s d n hn

/-- Window 3's block at point t is heads 2t and 2t + 1 of its array. -/
theorem blk_read3 (c : Dev nD) (t : Fin cfg0.N) (g : Fin 2) (s : Fin 1024) (d : Fin 64) (n : Fin 64)
    (hn : n.val = 2 * t.val + g.val) :
    (iblk m c 3 t : FVec Ideal S2x1024x64 .f32) (ix3 g s d) = (V m c main_v3 : FVec Ideal S64x1024x64 .f32) (ix3 n s d) := by
  obtain ⟨h0, h1, h2⟩ := idx_in3 t
  show V m c main_v3 (((cfg0.win 3).blk t).view.emb (ix3 g s d)) = V m c main_v3 (ix3 n s d)
  refine congrArg (V m c main_v3) (funext fun a => Fin.ext ?_)
  match a with
  | ⟨0, _⟩ => show win0_3.index t (0 : Fin 3) * 2 + 1 * g.val = n.val; rw [h0, hn]; omega
  | ⟨1, _⟩ => show win0_3.index t (1 : Fin 3) * 1024 + 1 * s.val = s.val; rw [h1]; omega
  | ⟨2, _⟩ => show win0_3.index t (2 : Fin 3) * 64 + 1 * d.val = d.val; rw [h2]; omega

theorem head_blk3 (c : Dev nD) (t : Fin cfg0.N) (g : Fin 2) (n : Fin 64) (hn : n.val = 2 * t.val + g.val) :
    head3 (iblk m c 3 t : FVec Ideal S2x1024x64 .f32) g = head3 (V m c main_v3 : FVec Ideal S64x1024x64 .f32) n :=
  funext fun s => funext fun d => blk_read3 m c t g s d n hn

/-- Window 4's block at point t is heads 2t and 2t + 1 of its array. -/
theorem blk_read4 (c : Dev nD) (t : Fin cfg0.N) (g : Fin 2) (s : Fin 1024) (d : Fin 64) (n : Fin 64)
    (hn : n.val = 2 * t.val + g.val) :
    (iblk m c 4 t : FVec Ideal S2x1024x64 .f32) (ix3 g s d) = (V m c main_v4 : FVec Ideal S64x1024x64 .f32) (ix3 n s d) := by
  obtain ⟨h0, h1, h2⟩ := idx_in4 t
  show V m c main_v4 (((cfg0.win 4).blk t).view.emb (ix3 g s d)) = V m c main_v4 (ix3 n s d)
  refine congrArg (V m c main_v4) (funext fun a => Fin.ext ?_)
  match a with
  | ⟨0, _⟩ => show win0_4.index t (0 : Fin 3) * 2 + 1 * g.val = n.val; rw [h0, hn]; omega
  | ⟨1, _⟩ => show win0_4.index t (1 : Fin 3) * 1024 + 1 * s.val = s.val; rw [h1]; omega
  | ⟨2, _⟩ => show win0_4.index t (2 : Fin 3) * 64 + 1 * d.val = d.val; rw [h2]; omega

theorem head_blk4 (c : Dev nD) (t : Fin cfg0.N) (g : Fin 2) (n : Fin 64) (hn : n.val = 2 * t.val + g.val) :
    head3 (iblk m c 4 t : FVec Ideal S2x1024x64 .f32) g = head3 (V m c main_v4 : FVec Ideal S64x1024x64 .f32) n :=
  funext fun s => funext fun d => blk_read4 m c t g s d n hn

/-- Window 5's block at point t is heads 2t and 2t + 1 of its array. -/
theorem blk_read5 (c : Dev nD) (t : Fin cfg0.N) (g : Fin 2) (s : Fin 1024) (d : Fin 64) (n : Fin 64)
    (hn : n.val = 2 * t.val + g.val) :
    (iblk m c 5 t : FVec Ideal S2x1024x64 .f32) (ix3 g s d) = (V m c main_v5 : FVec Ideal S64x1024x64 .f32) (ix3 n s d) := by
  obtain ⟨h0, h1, h2⟩ := idx_in5 t
  show V m c main_v5 (((cfg0.win 5).blk t).view.emb (ix3 g s d)) = V m c main_v5 (ix3 n s d)
  refine congrArg (V m c main_v5) (funext fun a => Fin.ext ?_)
  match a with
  | ⟨0, _⟩ => show win0_5.index t (0 : Fin 3) * 2 + 1 * g.val = n.val; rw [h0, hn]; omega
  | ⟨1, _⟩ => show win0_5.index t (1 : Fin 3) * 1024 + 1 * s.val = s.val; rw [h1]; omega
  | ⟨2, _⟩ => show win0_5.index t (2 : Fin 3) * 64 + 1 * d.val = d.val; rw [h2]; omega

theorem head_blk5 (c : Dev nD) (t : Fin cfg0.N) (g : Fin 2) (n : Fin 64) (hn : n.val = 2 * t.val + g.val) :
    head3 (iblk m c 5 t : FVec Ideal S2x1024x64 .f32) g = head3 (V m c main_v5 : FVec Ideal S64x1024x64 .f32) n :=
  funext fun s => funext fun d => blk_read5 m c t g s d n hn

/-! ## The wide array -/

/-- The wide array as one function of the six staged arrays: at (n, s, e) the fused form of head n. -/
def wide (a0 a1 a2 a3 a4 a5 : FVec Ideal S64x1024x64 .f32) : FVec Ideal S64x1024x128 .f32 :=
  fun i => outF (head3 a0 (i 0)) (head3 a1 (i 0)) (head3 a2 (i 0)) (head3 a3 (i 0)) (head3 a4 (i 0)) (head3 a5 (i 0)) (i 1) (i 2)

/-- The output block's place (g, s, e) at point t is (2t + g, s, e) of the wide array. -/
theorem emb_out (t : Fin cfg0.N) (g : Fin 2) (s : Fin 1024) (e : Fin 128) (n : Fin 64) (hn : n.val = 2 * t.val + g.val) :
    ((cfg0.win 6).blk t).view.emb (ix3 g s e) = (ix3 n s e : S64x1024x128.Idx) := by
  obtain ⟨h0, h1, h2⟩ := idx_out t
  funext a; apply Fin.ext
  match a with
  | ⟨0, _⟩ => show win0_6.index t (0 : Fin 3) * 2 + 1 * g.val = n.val; rw [h0, hn]; omega
  | ⟨1, _⟩ => show win0_6.index t (1 : Fin 3) * 1024 + 1 * s.val = s.val; rw [h1]; omega
  | ⟨2, _⟩ => show win0_6.index t (2 : Fin 3) * 128 + 1 * e.val = e.val; rw [h2]; omega

/-- What point t writes back is block t of the wide array. -/
theorem flushed_eq (c : Dev nD) (t : Fin cfg0.N) :
    (dats m 0 c).flushed 6 t = ((cfg0.win 6).blk t).view.read (Elt Ideal) (wide (V m c main_v0) (V m c main_v1) (V m c main_v2) (V m c main_v3) (V m c main_v4) (V m c main_v5)) := by
  show (cfg0.win 6).cut (grid0.coords t) ((dats m 0 c).after 6 t) = _
  rw [after0_6]
  unfold out0_6
  rw [View.canon_unit_zero hz3]
  simp only [View.ld_unit_zero (S := S2x1024x64) hz3]
  funext j
  obtain ⟨g, s, e, rfl⟩ : ∃ (g : Fin 2) (s : Fin 1024) (e : Fin 128), j = ix3 g s e := ⟨j 0, j 1, j 2, eq_ix3 j⟩
  have ht : t.val < 32 := by have h := t.isLt; have hN : cfg0.N = 32 := N_0; omega
  have hn : (⟨2 * t.val + g.val, by have := g.isLt; omega⟩ : Fin 64).val = 2 * t.val + g.val := rfl
  refine (payload_apply (iblk m c 0 t) (iblk m c 1 t) (iblk m c 2 t) (iblk m c 3 t) (iblk m c 4 t) (iblk m c 5 t) g s e).trans ?_
  rw [View.read_apply, emb_out t g s e _ hn]
  show _ = outF (head3 (V m c main_v0 : FVec Ideal S64x1024x64 .f32) _) (head3 (V m c main_v1 : FVec Ideal S64x1024x64 .f32) _) (head3 (V m c main_v2 : FVec Ideal S64x1024x64 .f32) _) (head3 (V m c main_v3 : FVec Ideal S64x1024x64 .f32) _) (head3 (V m c main_v4 : FVec Ideal S64x1024x64 .f32) _) (head3 (V m c main_v5 : FVec Ideal S64x1024x64 .f32) _) s e
  rw [head_blk0 m c t g _ hn, head_blk1 m c t g _ hn, head_blk2 m c t g _ hn, head_blk3 m c t g _ hn, head_blk4 m c t g _ hn, head_blk5 m c t g _ hn]

/-! ## The wide array after the run -/

/-- An index of the wide array is in point t's block iff each coordinate is in the block's range on its axis. -/
theorem mem_blk (t : Fin cfg0.N) (i : S64x1024x128.Idx) :
    i ∈ ((cfg0.win 6).blk t).view.set ↔ ∀ a : Fin 3, win0_6.index t a * S2x1024x128.size a ≤ (i a).val ∧ (i a).val < win0_6.index t a * S2x1024x128.size a + S2x1024x128.size a := by
  show i ∈ ((View.whole main_v6).slice (win0_6.rect t)).set ↔ _
  rw [View.set_slice_whole, Rect.mem_set_unit]
  exact Iff.rfl

/-- Every index of the wide array is in the block of the point that holds its pair of heads. -/
theorem cover (i : S64x1024x128.Idx) :
    ∃ t : Fin cfg0.N, (cfg0.win 6).flush t = true ∧ i ∈ ((cfg0.win 6).blk t).view.set := by
  have hi0 : (i 0).val < 64 := (i 0).isLt
  have hi1 : (i 1).val < 1024 := (i 1).isLt
  have hi2 : (i 2).val < 128 := (i 2).isLt
  obtain ⟨t, ht⟩ := idx_onto ⟨(i 0).val / 2, by omega⟩
  have ht' : t.val = (i 0).val / 2 := ht
  obtain ⟨h0, h1, h2⟩ := idx_out t
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; rw [h0]; omega
  | ⟨1, _⟩ => show win0_6.index t (1 : Fin 3) * 1024 ≤ (i 1).val ∧ (i 1).val < win0_6.index t (1 : Fin 3) * 1024 + 1024; rw [h1]; omega
  | ⟨2, _⟩ => show win0_6.index t (2 : Fin 3) * 128 ≤ (i 2).val ∧ (i 2).val < win0_6.index t (2 : Fin 3) * 128 + 128; rw [h2]; omega

/-- The wide array after the run. -/
theorem final (c : Dev nD) : (dats m 0 c).arrAt 6 cfg0.N = wide (V m c main_v0) (V m c main_v1) (V m c main_v2) (V m c main_v3) (V m c main_v4) (V m c main_v5) :=
  (dats m 0 c).arrAt_eq_of_cover 6 (wide (V m c main_v0) (V m c main_v1) (V m c main_v2) (V m c main_v3) (V m c main_v4) (V m c main_v5)) (fun t _ => flushed_eq m c t) cover

/-! ## Before the region: batch and head merged -/

/-- A [4, 16, 1024, 64] array with its two leading axes merged, at (n, s, d) with n = 16 b + h, is the array at
    (b, h, s, d). -/
theorem merged_apply (x : FVec Ideal S4x16x1024x64 .f32) (n : Fin 64) (b : Fin 4) (h : Fin 16) (s : Fin 1024) (d : Fin 64)
    (hn : n.val = 16 * b.val + h.val) :
    shapeCast S64x1024x64 x Facts₀.shapeCasts_S4x16x1024x64_S64x1024x64 (ix3 n s d) = x (ix4 b h s d) :=
  shapeCast_apply x Facts₀.shapeCasts_S4x16x1024x64_S64x1024x64 (ix3 n s d) (ix4 b h s d) (by
    rw [Shape.rowMajor_val_four, Shape.rowMajor_val_three]
    show ((b.val * 16 + h.val) * 1024 + s.val) * 64 + d.val = (n.val * 1024 + s.val) * 64 + d.val
    rw [hn]; ring)

/-- Staged array 0 is argument 0 with the batch and head axes merged. -/
theorem staged0 (c : Dev nD) :
    (V m c main_v0 : FVec Ideal S64x1024x64 .f32)
      = shapeCast S64x1024x64 (m ((c : Thread nD τ).loc main_arg0)) Facts₀.shapeCasts_S4x16x1024x64_S64x1024x64 := by
  show StableHlo.after hostOps0 (fun b => m (c, b)) (Proc.devRef .tc main_v0) = _
  after_results
  rfl

/-- Head n = 16 b + h of staged array 0 is head (b, h) of argument 0. -/
theorem head_staged0 (c : Dev nD) (n : Fin 64) (b : Fin 4) (h : Fin 16) (hn : n.val = 16 * b.val + h.val) :
    head3 (V m c main_v0 : FVec Ideal S64x1024x64 .f32) n = head4 (m ((c : Thread nD τ).loc main_arg0)) b h := by
  funext s d
  show (V m c main_v0 : FVec Ideal S64x1024x64 .f32) (ix3 n s d) = _
  rw [staged0]
  exact merged_apply _ n b h s d hn

/-- Staged array 1 is argument 1 with the batch and head axes merged. -/
theorem staged1 (c : Dev nD) :
    (V m c main_v1 : FVec Ideal S64x1024x64 .f32)
      = shapeCast S64x1024x64 (m ((c : Thread nD τ).loc main_arg1)) Facts₀.shapeCasts_S4x16x1024x64_S64x1024x64 := by
  show StableHlo.after hostOps0 (fun b => m (c, b)) (Proc.devRef .tc main_v1) = _
  after_results
  rfl

/-- Head n = 16 b + h of staged array 1 is head (b, h) of argument 1. -/
theorem head_staged1 (c : Dev nD) (n : Fin 64) (b : Fin 4) (h : Fin 16) (hn : n.val = 16 * b.val + h.val) :
    head3 (V m c main_v1 : FVec Ideal S64x1024x64 .f32) n = head4 (m ((c : Thread nD τ).loc main_arg1)) b h := by
  funext s d
  show (V m c main_v1 : FVec Ideal S64x1024x64 .f32) (ix3 n s d) = _
  rw [staged1]
  exact merged_apply _ n b h s d hn

/-- Staged array 2 is argument 2 with the batch and head axes merged. -/
theorem staged2 (c : Dev nD) :
    (V m c main_v2 : FVec Ideal S64x1024x64 .f32)
      = shapeCast S64x1024x64 (m ((c : Thread nD τ).loc main_arg2)) Facts₀.shapeCasts_S4x16x1024x64_S64x1024x64 := by
  show StableHlo.after hostOps0 (fun b => m (c, b)) (Proc.devRef .tc main_v2) = _
  after_results
  rfl

/-- Head n = 16 b + h of staged array 2 is head (b, h) of argument 2. -/
theorem head_staged2 (c : Dev nD) (n : Fin 64) (b : Fin 4) (h : Fin 16) (hn : n.val = 16 * b.val + h.val) :
    head3 (V m c main_v2 : FVec Ideal S64x1024x64 .f32) n = head4 (m ((c : Thread nD τ).loc main_arg2)) b h := by
  funext s d
  show (V m c main_v2 : FVec Ideal S64x1024x64 .f32) (ix3 n s d) = _
  rw [staged2]
  exact merged_apply _ n b h s d hn

/-- Staged array 3 is argument 3 with the batch and head axes merged. -/
theorem staged3 (c : Dev nD) :
    (V m c main_v3 : FVec Ideal S64x1024x64 .f32)
      = shapeCast S64x1024x64 (m ((c : Thread nD τ).loc main_arg3)) Facts₀.shapeCasts_S4x16x1024x64_S64x1024x64 := by
  show StableHlo.after hostOps0 (fun b => m (c, b)) (Proc.devRef .tc main_v3) = _
  after_results
  rfl

/-- Head n = 16 b + h of staged array 3 is head (b, h) of argument 3. -/
theorem head_staged3 (c : Dev nD) (n : Fin 64) (b : Fin 4) (h : Fin 16) (hn : n.val = 16 * b.val + h.val) :
    head3 (V m c main_v3 : FVec Ideal S64x1024x64 .f32) n = head4 (m ((c : Thread nD τ).loc main_arg3)) b h := by
  funext s d
  show (V m c main_v3 : FVec Ideal S64x1024x64 .f32) (ix3 n s d) = _
  rw [staged3]
  exact merged_apply _ n b h s d hn

/-- Staged array 4 is argument 4 with the batch and head axes merged. -/
theorem staged4 (c : Dev nD) :
    (V m c main_v4 : FVec Ideal S64x1024x64 .f32)
      = shapeCast S64x1024x64 (m ((c : Thread nD τ).loc main_arg4)) Facts₀.shapeCasts_S4x16x1024x64_S64x1024x64 := by
  show StableHlo.after hostOps0 (fun b => m (c, b)) (Proc.devRef .tc main_v4) = _
  after_results
  rfl

/-- Head n = 16 b + h of staged array 4 is head (b, h) of argument 4. -/
theorem head_staged4 (c : Dev nD) (n : Fin 64) (b : Fin 4) (h : Fin 16) (hn : n.val = 16 * b.val + h.val) :
    head3 (V m c main_v4 : FVec Ideal S64x1024x64 .f32) n = head4 (m ((c : Thread nD τ).loc main_arg4)) b h := by
  funext s d
  show (V m c main_v4 : FVec Ideal S64x1024x64 .f32) (ix3 n s d) = _
  rw [staged4]
  exact merged_apply _ n b h s d hn

/-- Staged array 5 is argument 5 with the batch and head axes merged. -/
theorem staged5 (c : Dev nD) :
    (V m c main_v5 : FVec Ideal S64x1024x64 .f32)
      = shapeCast S64x1024x64 (m ((c : Thread nD τ).loc main_arg5)) Facts₀.shapeCasts_S4x16x1024x64_S64x1024x64 := by
  show StableHlo.after hostOps0 (fun b => m (c, b)) (Proc.devRef .tc main_v5) = _
  after_results
  rfl

/-- Head n = 16 b + h of staged array 5 is head (b, h) of argument 5. -/
theorem head_staged5 (c : Dev nD) (n : Fin 64) (b : Fin 4) (h : Fin 16) (hn : n.val = 16 * b.val + h.val) :
    head3 (V m c main_v5 : FVec Ideal S64x1024x64 .f32) n = head4 (m ((c : Thread nD τ).loc main_arg5)) b h := by
  funext s d
  show (V m c main_v5 : FVec Ideal S64x1024x64 .f32) (ix3 n s d) = _
  rw [staged5]
  exact merged_apply _ n b h s d hn

/-! ## After the region: the two halves of the wide array, the leading axis split again -/

section Results
variable (x0 x1 x2 x3 x4 x5 : FVec Ideal S4x16x1024x64 .f32)

/-- The first result at (b, h, s, e): the fused form of head (b, h) of the arguments at feature e. -/
def res1 (b : Fin 4) (h : Fin 16) (s : Fin 1024) (e : Fin 64) : EReal :=
  outF (head4 x0 b h) (head4 x1 b h) (head4 x2 b h) (head4 x3 b h) (head4 x4 b h) (head4 x5 b h) s ⟨e.val, by have := e.isLt; omega⟩

/-- The second result at (b, h, s, e): the same at feature 64 + e. -/
def res2 (b : Fin 4) (h : Fin 16) (s : Fin 1024) (e : Fin 64) : EReal :=
  outF (head4 x0 b h) (head4 x1 b h) (head4 x2 b h) (head4 x3 b h) (head4 x4 b h) (head4 x5 b h) s ⟨64 + e.val, by have := e.isLt; omega⟩

/-- The two results as arrays. -/
def out1 : FVec Ideal S4x16x1024x64 .f32 := fun i => res1 x0 x1 x2 x3 x4 x5 (i 0) (i 1) (i 2) (i 3)
def out2 : FVec Ideal S4x16x1024x64 .f32 := fun i => res2 x0 x1 x2 x3 x4 x5 (i 0) (i 1) (i 2) (i 3)

end Results

/-- What the region leaves in the wide array's buffer, as the lines after the region find it. -/
theorem wide_after (c : Dev nD) :
    Pipeline.withArrays (cfgs 0).spec c (V0 m c) (fun w => (dats m 0 c).arrAt w (cfgs 0).N) (Proc.devRef .tc main_v6)
      = wide (V m c main_v0) (V m c main_v1) (V m c main_v2) (V m c main_v3) (V m c main_v4) (V m c main_v5) :=
  (Pipeline.withArrays_arr spec0 launch0.win.arr_inj c _ _ 6).trans (final m c)

/-- The first result: the first 64 features of the wide array, its leading axis split into batch and head. -/
theorem tail1 (c : Dev nD) :
    Pipeline.afterTail₀ cfgs (dats m) 0 (V0 m) [hostOps1] c main_v8
      = shapeCast S4x16x1024x64
          (extractStridedSlice S64x1024x64 ![0, 0, 0] (wide (V m c main_v0) (V m c main_v1) (V m c main_v2) (V m c main_v3) (V m c main_v4) (V m c main_v5)) Facts₀.slices_S64x1024x128_S64x1024x64_0_0_0)
          Facts₀.shapeCasts_S64x1024x64_S4x16x1024x64 := by
  unfold Pipeline.afterTail₀
  show StableHlo.after hostOps1 _ (Proc.devRef .tc main_v8) = _
  after_results
  rw [wide_after]
  rfl

/-- The second result: the last 64 features of the wide array, its leading axis split into batch and head. -/
theorem tail2 (c : Dev nD) :
    Pipeline.afterTail₀ cfgs (dats m) 0 (V0 m) [hostOps1] c main_v10
      = shapeCast S4x16x1024x64
          (extractStridedSlice S64x1024x64 ![0, 0, 64] (wide (V m c main_v0) (V m c main_v1) (V m c main_v2) (V m c main_v3) (V m c main_v4) (V m c main_v5)) Facts₀.slices_S64x1024x128_S64x1024x64_0_0_64)
          Facts₀.shapeCasts_S64x1024x64_S4x16x1024x64 := by
  unfold Pipeline.afterTail₀
  show StableHlo.after hostOps1 _ (Proc.devRef .tc main_v10) = _
  after_results
  rw [wide_after]
  rfl

/-- A [64, 1024, 64] array with its leading axis split into [4, 16], at (b, h, s, e), is the array at (16 b + h, s, e). -/
theorem split_apply (y : FVec Ideal S64x1024x64 .f32) (n : Fin 64) (b : Fin 4) (h : Fin 16) (s : Fin 1024) (e : Fin 64)
    (hn : n.val = 16 * b.val + h.val) :
    shapeCast S4x16x1024x64 y Facts₀.shapeCasts_S64x1024x64_S4x16x1024x64 (ix4 b h s e) = y (ix3 n s e) :=
  shapeCast_apply y Facts₀.shapeCasts_S64x1024x64_S4x16x1024x64 (ix4 b h s e) (ix3 n s e) (by
    rw [Shape.rowMajor_val_four, Shape.rowMajor_val_three]
    show (n.val * 1024 + s.val) * 64 + e.val = ((b.val * 16 + h.val) * 1024 + s.val) * 64 + e.val
    rw [hn]; ring)

/-- The wide array at (n, s, e) with n = 16 b + h is the fused form of head (b, h) of the arguments. -/
theorem wide_apply (c : Dev nD) (n : Fin 64) (b : Fin 4) (h : Fin 16) (s : Fin 1024) (e : Fin 128) (hn : n.val = 16 * b.val + h.val) :
    wide (V m c main_v0) (V m c main_v1) (V m c main_v2) (V m c main_v3) (V m c main_v4) (V m c main_v5) (ix3 n s e)
      = outF (head4 (m ((c : Thread nD τ).loc main_arg0)) b h) (head4 (m ((c : Thread nD τ).loc main_arg1)) b h)
          (head4 (m ((c : Thread nD τ).loc main_arg2)) b h) (head4 (m ((c : Thread nD τ).loc main_arg3)) b h)
          (head4 (m ((c : Thread nD τ).loc main_arg4)) b h) (head4 (m ((c : Thread nD τ).loc main_arg5)) b h) s e := by
  show outF (head3 (V m c main_v0 : FVec Ideal S64x1024x64 .f32) n) (head3 (V m c main_v1 : FVec Ideal S64x1024x64 .f32) n)
      (head3 (V m c main_v2 : FVec Ideal S64x1024x64 .f32) n) (head3 (V m c main_v3 : FVec Ideal S64x1024x64 .f32) n)
      (head3 (V m c main_v4 : FVec Ideal S64x1024x64 .f32) n) (head3 (V m c main_v5 : FVec Ideal S64x1024x64 .f32) n) s e = _
  rw [head_staged0 m c n b h hn, head_staged1 m c n b h hn, head_staged2 m c n b h hn, head_staged3 m c n b h hn,
    head_staged4 m c n b h hn, head_staged5 m c n b h hn]

/-- The first result is `out1` of the arguments. -/
theorem result1 (c : Dev nD) :
    Pipeline.afterTail₀ cfgs (dats m) 0 (V0 m) [hostOps1] c main_v8 = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail1]
  funext i
  obtain ⟨b, h, s, e, rfl⟩ : ∃ (b : Fin 4) (h : Fin 16) (s : Fin 1024) (e : Fin 64), i = ix4 b h s e := ⟨i 0, i 1, i 2, i 3, eq_ix4 i⟩
  have hb := b.isLt; have hh := h.isLt; have he := e.isLt
  have hn : (⟨16 * b.val + h.val, by omega⟩ : Fin 64).val = 16 * b.val + h.val := rfl
  refine (split_apply _ _ b h s e hn).trans ?_
  refine (extractStridedSlice_apply ![0, 0, 0] _ Facts₀.slices_S64x1024x128_S64x1024x64_0_0_0 (ix3 _ s e)
    (ix3 (⟨16 * b.val + h.val, by omega⟩ : Fin 64) s (⟨e.val, by omega⟩ : Fin 128)) (fun a => match a with
      | ⟨0, _⟩ => by show 16 * b.val + h.val = 0 + (16 * b.val + h.val); omega
      | ⟨1, _⟩ => by show s.val = 0 + s.val; omega
      | ⟨2, _⟩ => by show e.val = 0 + e.val; omega)).trans ?_
  exact wide_apply m c _ b h s _ hn

/-- The second result is `out2` of the arguments. -/
theorem result2 (c : Dev nD) :
    Pipeline.afterTail₀ cfgs (dats m) 0 (V0 m) [hostOps1] c main_v10 = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail2]
  funext i
  obtain ⟨b, h, s, e, rfl⟩ : ∃ (b : Fin 4) (h : Fin 16) (s : Fin 1024) (e : Fin 64), i = ix4 b h s e := ⟨i 0, i 1, i 2, i 3, eq_ix4 i⟩
  have hb := b.isLt; have hh := h.isLt; have he := e.isLt
  have hn : (⟨16 * b.val + h.val, by omega⟩ : Fin 64).val = 16 * b.val + h.val := rfl
  refine (split_apply _ _ b h s e hn).trans ?_
  refine (extractStridedSlice_apply ![0, 0, 64] _ Facts₀.slices_S64x1024x128_S64x1024x64_0_0_64 (ix3 _ s e)
    (ix3 (⟨16 * b.val + h.val, by omega⟩ : Fin 64) s (⟨64 + e.val, by omega⟩ : Fin 128)) (fun a => match a with
      | ⟨0, _⟩ => by show 16 * b.val + h.val = 0 + (16 * b.val + h.val); omega
      | ⟨1, _⟩ => by show s.val = 0 + s.val; omega
      | ⟨2, _⟩ => by show 64 + e.val = 64 + e.val; rfl)).trans ?_
  exact wide_apply m c _ b h s _ hn

/-! ## The run, read -/

/-- Every weakly fair execution of the idealized kernel program ends with the two results at `out1` and `out2` of the
    arguments, and the arguments unchanged. -/
theorem run : θ_run defs (onTc (τ := τ) (main (F := Ideal))) ⟨m, fun _ => 0, ρ⟩ fun r => ∀ c : Dev nD,
      r.2.mem ((c.tc : Thread nD τ).loc main_v8) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v10) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (result1 m c),
      ((h c).2 main_v10 (Pipeline.mem_restRefs_of main_v10 (by decide) (by decide))).trans (result2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelValue

end
-- ==== Proof.RefRead.lean ====
/-
  The reference's two results read at an index: each is the plain form (Spec.lean) of the argument arrays' heads.
-/
import proofs.«404403_j7722351198463_3_alg».proof.Proof.Gen.ReferenceIdeal.Read
import proofs.«404403_j7722351198463_3_alg».proof.Proof.Spec

noncomputable section

namespace Cert.RefValue

open Idealize.ShloMosaic Idealize.ShloMosaic.ValueIdx Cert.ReferenceIdeal Cert.TwoStream

/-! ## The stages, innermost first, each read at coordinates -/

section Stages
variable (x0 x1 x3 x4 : (⟨S4x16x1024x64, .f32⟩ : BufTy).Contents (Elt Ideal))
variable (b : Fin 4) (h : Fin 16)

/-- The first stream's query–key product at (b, h, s, t). -/
theorem v0_apply (s t : Fin 1024) :
    Read.val_main_v0 (F := Ideal) x0 x1 (ix4 b h s t) = ∑ d : Fin 64, head4 x0 b h s d * head4 x1 b h t d := by
  rw [Read.val_main_v0_apply]
  refine Finset.sum_congr rfl fun k _ => ?_
  have el : Read.lidx_main_v0 (ix4 b h s t) k = ix4 b h s k := funext fun a => Fin.ext (by
    match a with | ⟨0, _⟩ => rfl | ⟨1, _⟩ => rfl | ⟨2, _⟩ => rfl | ⟨3, _⟩ => rfl)
  have er : Read.ridx_main_v0 (ix4 b h s t) k = ix4 b h t k := funext fun a => Fin.ext (by
    match a with | ⟨0, _⟩ => rfl | ⟨1, _⟩ => rfl | ⟨2, _⟩ => rfl | ⟨3, _⟩ => rfl)
  rw [el, er]
  rfl

/-- The second stream's query–key product at (b, h, s, t). -/
theorem v1_apply (s t : Fin 1024) :
    Read.val_main_v1 (F := Ideal) x3 x4 (ix4 b h s t) = ∑ d : Fin 64, head4 x3 b h s d * head4 x4 b h t d := by
  rw [Read.val_main_v1_apply]
  refine Finset.sum_congr rfl fun k _ => ?_
  have el : Read.lidx_main_v1 (ix4 b h s t) k = ix4 b h s k := funext fun a => Fin.ext (by
    match a with | ⟨0, _⟩ => rfl | ⟨1, _⟩ => rfl | ⟨2, _⟩ => rfl | ⟨3, _⟩ => rfl)
  have er : Read.ridx_main_v1 (ix4 b h s t) k = ix4 b h t k := funext fun a => Fin.ext (by
    match a with | ⟨0, _⟩ => rfl | ⟨1, _⟩ => rfl | ⟨2, _⟩ => rfl | ⟨3, _⟩ => rfl)
  rw [el, er]
  rfl

/-- The scaled score at (b, h, s, t) is the plain form's score of head (b, h). -/
theorem v6_apply (s t : Fin 1024) :
    Read.val_main_v6 (F := Ideal) x0 x1 x3 x4 (ix4 b h s t)
      = scoreP (head4 x0 b h) (head4 x1 b h) (head4 x3 b h) (head4 x4 b h) s t := by
  rw [Read.val_main_v6_apply, Read.val_main_v4_apply, Read.val_main_v2_apply, Read.val_main_v3_apply,
    Read.val_main_v5_apply, Read.val_main_cst_apply, Read.val_main_cst_0_apply, v0_apply, v1_apply]
  simp only [Ideal.mulf_def, Ideal.addf_def, Ideal.ofBits_def]
  rfl

/-- The reduced index (b, h, s) with coordinate k put back on the last axis is (b, h, s, k). -/
theorem lift_ix3 (hr : S4x16x1024x1024.Reduces [3] S4x16x1024) (s : Fin 1024)
    (k : Fin (S4x16x1024x1024.size 3)) :
    hr.lift (ix3 b h s) k = ix4 b h s (⟨k.val, k.isLt⟩ : Fin 1024) := by
  funext c; apply Fin.ext
  match c with | ⟨0, _⟩ => rfl | ⟨1, _⟩ => rfl | ⟨2, _⟩ => rfl | ⟨3, _⟩ => rfl

/-- The row's largest score counted from −∞, at (b, h, s). -/
theorem v7_apply (s : Fin 1024) :
    Read.val_main_v7 (F := Ideal) x0 x1 x3 x4 (ix3 b h s)
      = (Finset.univ : Finset (Fin 1024)).fold max (Ideal.ofBits .f32 0xFF800000#32)
          (fun t => scoreP (head4 x0 b h) (head4 x1 b h) (head4 x3 b h) (head4 x4 b h) s t) := by
  have hr : S4x16x1024x1024.Reduces [3] S4x16x1024 := by decide
  unfold Read.val_main_v7
  rw [Host.reduce_eq_fold_single FloatOps.maximumf _ _ Gen.reducesTo_S4x16x1024x1024_S4x16x1024_d3 hr Gen.h_S_]
  have hf : (Read.val_main_v6 (F := Ideal) x0 x1 x3 x4 ∘ hr.lift (ix3 b h s))
      = fun t : Fin 1024 => scoreP (head4 x0 b h) (head4 x1 b h) (head4 x3 b h) (head4 x4 b h) s t :=
    funext fun k => by
      show Read.val_main_v6 (F := Ideal) x0 x1 x3 x4 (hr.lift (ix3 b h s) k) = _
      rw [lift_ix3 b h hr s k]
      exact v6_apply x0 x1 x3 x4 b h s _
  exact congrArg (fun f => Finset.fold max (Ideal.ofBits .f32 0xFF800000#32) f (Finset.univ : Finset (Fin 1024))) hf

/-- The row's largest score taken once more against −∞, at (b, h, s), is the plain form's row maximum. -/
theorem v9_apply (s : Fin 1024) :
    Read.val_main_v9 (F := Ideal) x0 x1 x3 x4 (ix3 b h s)
      = rowMaxP (head4 x0 b h) (head4 x1 b h) (head4 x3 b h) (head4 x4 b h) s := by
  rw [Read.val_main_v9_apply, Read.val_main_v8_apply, Read.val_main_cst_2_apply, v7_apply]
  simp only [Ideal.maximumf_def, Ideal.ofBits_def]
  rfl

/-- The row maximum spread back over the row, at (b, h, s, t). -/
theorem v11_apply (s t : Fin 1024) :
    Read.val_main_v11 (F := Ideal) x0 x1 x3 x4 (ix4 b h s t)
      = rowMaxP (head4 x0 b h) (head4 x1 b h) (head4 x3 b h) (head4 x4 b h) s := by
  rw [Read.val_main_v11_apply, Read.val_main_v10_apply]
  have e : Read.idx_main_v10 (Read.idx_main_v11 (ix4 b h s t)) = ix3 b h s := funext fun a => Fin.ext (by
    match a with | ⟨0, _⟩ => rfl | ⟨1, _⟩ => rfl | ⟨2, _⟩ => rfl)
  rw [e]
  exact v9_apply x0 x1 x3 x4 b h s

/-- The exponential of the score less the row maximum, at (b, h, s, t). -/
theorem v13_apply (s t : Fin 1024) :
    Read.val_main_v13 (F := Ideal) x0 x1 x3 x4 (ix4 b h s t)
      = expP (head4 x0 b h) (head4 x1 b h) (head4 x3 b h) (head4 x4 b h) s t := by
  rw [Read.val_main_v13_apply, Read.val_main_v12_apply, v6_apply, v11_apply]
  simp only [Ideal.hostUnary_exp_def, Ideal.subf_def]
  rfl

/-- The row's sum of exponentials counted from 0, at (b, h, s). -/
theorem v14_apply (s : Fin 1024) :
    Read.val_main_v14 (F := Ideal) x0 x1 x3 x4 (ix3 b h s)
      = rowSumP (head4 x0 b h) (head4 x1 b h) (head4 x3 b h) (head4 x4 b h) s := by
  rw [Read.val_main_v14_apply, Read.val_main_cst_3_apply]
  unfold rowSumP
  simp only [Ideal.ofBits_def]
  refine congrArg (_ + ·) (Finset.sum_congr rfl fun k _ => ?_)
  have e : Read.idx_main_v14 (ix3 b h s) k = ix4 b h s k := funext fun a => Fin.ext (by
    match a with | ⟨0, _⟩ => rfl | ⟨1, _⟩ => rfl | ⟨2, _⟩ => rfl | ⟨3, _⟩ => rfl)
  rw [e]
  exact v13_apply x0 x1 x3 x4 b h s k

/-- The row sum spread back over the row, at (b, h, s, t). -/
theorem v16_apply (s t : Fin 1024) :
    Read.val_main_v16 (F := Ideal) x0 x1 x3 x4 (ix4 b h s t)
      = rowSumP (head4 x0 b h) (head4 x1 b h) (head4 x3 b h) (head4 x4 b h) s := by
  rw [Read.val_main_v16_apply, Read.val_main_v15_apply]
  have e : Read.idx_main_v15 (Read.idx_main_v16 (ix4 b h s t)) = ix3 b h s := funext fun a => Fin.ext (by
    match a with | ⟨0, _⟩ => rfl | ⟨1, _⟩ => rfl | ⟨2, _⟩ => rfl)
  rw [e]
  exact v14_apply x0 x1 x3 x4 b h s

/-- The weight at (b, h, s, t) is the plain form's weight of head (b, h). -/
theorem v17_apply (s t : Fin 1024) :
    Read.val_main_v17 (F := Ideal) x0 x1 x3 x4 (ix4 b h s t)
      = weightP (head4 x0 b h) (head4 x1 b h) (head4 x3 b h) (head4 x4 b h) s t := by
  rw [Read.val_main_v17_apply, v13_apply, v16_apply]
  simp only [Ideal.hostDivf_def]
  rfl

end Stages

/-- The reference's first result at (b, h, s, e) is the first stream's plain output of head (b, h). -/
theorem out1_apply (x0 x1 x2 x3 x4 : (⟨S4x16x1024x64, .f32⟩ : BufTy).Contents (Elt Ideal))
    (b : Fin 4) (h : Fin 16) (s : Fin 1024) (e : Fin 64) :
    Read.val_main_v18 (F := Ideal) x0 x1 x2 x3 x4 (ix4 b h s e)
      = outP (head4 x0 b h) (head4 x1 b h) (head4 x3 b h) (head4 x4 b h) (head4 x2 b h) s e := by
  rw [Read.val_main_v18_apply]
  unfold outP
  refine Finset.sum_congr rfl fun k _ => ?_
  have el : Read.lidx_main_v18 (ix4 b h s e) k = ix4 b h s k := funext fun a => Fin.ext (by
    match a with | ⟨0, _⟩ => rfl | ⟨1, _⟩ => rfl | ⟨2, _⟩ => rfl | ⟨3, _⟩ => rfl)
  have er : Read.ridx_main_v18 (ix4 b h s e) k = ix4 b h k e := funext fun a => Fin.ext (by
    match a with | ⟨0, _⟩ => rfl | ⟨1, _⟩ => rfl | ⟨2, _⟩ => rfl | ⟨3, _⟩ => rfl)
  rw [el, er, v17_apply]
  rfl

/-- The reference's second result at (b, h, s, e) is the second stream's plain output of head (b, h). -/
theorem out2_apply (x0 x1 x3 x4 x5 : (⟨S4x16x1024x64, .f32⟩ : BufTy).Contents (Elt Ideal))
    (b : Fin 4) (h : Fin 16) (s : Fin 1024) (e : Fin 64) :
    Read.val_main_v19 (F := Ideal) x0 x1 x3 x4 x5 (ix4 b h s e)
      = outP (head4 x0 b h) (head4 x1 b h) (head4 x3 b h) (head4 x4 b h) (head4 x5 b h) s e := by
  rw [Read.val_main_v19_apply]
  unfold outP
  refine Finset.sum_congr rfl fun k _ => ?_
  have el : Read.lidx_main_v19 (ix4 b h s e) k = ix4 b h s k := funext fun a => Fin.ext (by
    match a with | ⟨0, _⟩ => rfl | ⟨1, _⟩ => rfl | ⟨2, _⟩ => rfl | ⟨3, _⟩ => rfl)
  have er : Read.ridx_main_v19 (ix4 b h s e) k = ix4 b h k e := funext fun a => Fin.ext (by
    match a with | ⟨0, _⟩ => rfl | ⟨1, _⟩ => rfl | ⟨2, _⟩ => rfl | ⟨3, _⟩ => rfl)
  rw [el, er, v17_apply]
  rfl

end Cert.RefValue

end
-- ==== Proof.Algebra.lean ====
/-
  The fused and the plain form of two-stream attention (Spec.lean) are one function where the queries and keys are
  real numbers.
-/
import proofs.«404403_j7722351198463_3_alg».proof.Proof.Spec

noncomputable section

namespace Cert.TwoStream

open Idealize.ShloMosaic

/-! ## Side-by-side features at the two halves -/

/-- The first 64 side-by-side features are the first head's. -/
theorem side_fst (a b : Head) (s : Fin 1024) (j : Fin 64) :
    side a b s ⟨j.val, by have := j.isLt; omega⟩ = a s j := by
  unfold side
  rw [dif_pos (show (j.val : Nat) < 64 from j.isLt)]

/-- The last 64 side-by-side features are the second head's. -/
theorem side_snd (a b : Head) (s : Fin 1024) (j : Fin 64) :
    side a b s ⟨64 + j.val, by have := j.isLt; omega⟩ = b s j := by
  unfold side
  rw [dif_neg (show ¬ (64 + j.val < 64) by omega)]
  congr 1
  apply Fin.ext
  show 64 + j.val - 64 = j.val
  omega

/-- A sum over 128 side-by-side features of products is the two sums over 64 features. -/
theorem sum_side_mul (a b c d : Head) (s t : Fin 1024) :
    (∑ j : Fin 128, side a b s j * side c d t j)
      = (∑ j : Fin 64, a s j * c t j) + ∑ j : Fin 64, b s j * d t j := by
  refine (Fin.sum_univ_add (M := EReal) (a := 64) (b := 64)
    (fun j : Fin (64 + 64) => side a b s j * side c d t j)).trans ?_
  refine congrArg₂ (· + ·) (Finset.sum_congr rfl fun j _ => ?_) (Finset.sum_congr rfl fun j _ => ?_)
  · show side a b s ⟨j.val, _⟩ * side c d t ⟨j.val, _⟩ = _
    rw [side_fst, side_fst]
  · show side a b s ⟨64 + j.val, _⟩ * side c d t ⟨64 + j.val, _⟩ = _
    rw [side_snd, side_snd]

/-! ## The literals -/

/-- The f32 pattern 0x3F000000 is one half. -/
theorem ofBits_half_f32 : Ideal.ofBits .f32 0x3F000000#32 = (((1 : ℝ) / 2 : ℝ) : EReal) := by
  simp [Ideal.ofBits, Ideal.ieee, -EReal.coe_mul]; norm_num

/-- The f32 pattern 0x3E000000 is one eighth. -/
theorem ofBits_eighth_f32 : Ideal.ofBits .f32 0x3E000000#32 = (((1 : ℝ) / 8 : ℝ) : EReal) := by
  simp [Ideal.ofBits, Ideal.ieee, -EReal.coe_mul]; norm_num

/-- The f32 pattern 0x3D800000 is one sixteenth. -/
theorem ofBits_sixteenth_f32 : Ideal.ofBits .f32 0x3D800000#32 = (((1 : ℝ) / 16 : ℝ) : EReal) := by
  simp [Ideal.ofBits, Ideal.ieee, -EReal.coe_mul]; norm_num

/-- The f32 pattern 0xFF800000 is −∞. -/
theorem ofBits_neg_inf_f32 : Ideal.ofBits .f32 0xFF800000#32 = (⊥ : EReal) := by
  simp [Ideal.ofBits, Ideal.ieee]

/-! ## Scores, row maxima, exponentials, row sums: the two forms agree -/

section Same
variable (q k q' k' : Head)

/-- One product over 128 features scaled by 1/16 is the two products over 64 added, scaled by 1/2 and by 1/8. -/
theorem scoreF_eq : scoreF q k q' k' = scoreP q k q' k' := by
  funext s t
  unfold scoreF scoreP
  rw [sum_side_mul, ofBits_sixteenth_f32, ofBits_half_f32, ofBits_eighth_f32, mul_assoc, ← EReal.coe_mul]
  congr 2
  norm_num

/-- The largest of a row, taken against −∞ once more, is the largest of the row. -/
theorem rowMaxF_eq : rowMaxF q k q' k' = rowMaxP q k q' k' := by
  funext s
  unfold rowMaxF rowMaxP
  rw [scoreF_eq, ofBits_neg_inf_f32, max_eq_right bot_le]

/-- The exponentials agree. -/
theorem expF_eq : expF q k q' k' = expP q k q' k' := by
  funext s t
  unfold expF expP
  rw [scoreF_eq, rowMaxF_eq]

/-- A sum counted from 0 is the sum. -/
theorem rowSumP_eq : rowSumP q k q' k' = rowSumF q k q' k' := by
  funext s
  unfold rowSumP rowSumF
  rw [Ideal.ofBits_zero_f32, zero_add, expF_eq]

end Same

/-! ## Real queries and keys: the row sum is not zero -/

/-- A finite sum of reals is a real. -/
theorem exists_real_sum {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r1, h1⟩ := hf a (Finset.mem_insert_self _ _)
    obtain ⟨r2, h2⟩ := ih fun i hi => hf i (Finset.mem_insert_of_mem hi)
    exact ⟨r1 + r2, by rw [Finset.sum_insert ha, h1, h2, EReal.coe_add]⟩

/-- A product of 64 features of two real heads, summed, is a real. -/
theorem exists_real_dot (a b : Head) (ha : ∀ s d, ∃ r : ℝ, a s d = (r : EReal))
    (hb : ∀ s d, ∃ r : ℝ, b s d = (r : EReal)) (s t : Fin 1024) :
    ∃ r : ℝ, ∑ d : Fin 64, a s d * b t d = (r : EReal) := by
  refine exists_real_sum _ _ fun d _ => ?_
  obtain ⟨x, hx⟩ := ha s d
  obtain ⟨y, hy⟩ := hb t d
  exact ⟨x * y, by rw [hx, hy, EReal.coe_mul]⟩

section Real
variable (q k q' k' : Head)
variable (hq : ∀ s d, ∃ r : ℝ, q s d = (r : EReal)) (hk : ∀ s d, ∃ r : ℝ, k s d = (r : EReal))
variable (hq' : ∀ s d, ∃ r : ℝ, q' s d = (r : EReal)) (hk' : ∀ s d, ∃ r : ℝ, k' s d = (r : EReal))

include hq hk hq' hk'

/-- With real queries and keys every score is a real. -/
theorem exists_real_scoreP (s t : Fin 1024) : ∃ r : ℝ, scoreP q k q' k' s t = (r : EReal) := by
  obtain ⟨x, hx⟩ := exists_real_dot q k hq hk s t
  obtain ⟨y, hy⟩ := exists_real_dot q' k' hq' hk' s t
  refine ⟨(x + y) * (1 / 2) * (1 / 8), ?_⟩
  unfold scoreP
  rw [hx, hy, ofBits_half_f32, ofBits_eighth_f32, ← EReal.coe_add, ← EReal.coe_mul, ← EReal.coe_mul]

/-- With real queries and keys a row's largest score is a real: it is at least the row's first score, so it is
    not −∞, and every score and −∞ lie below +∞, so it is not +∞. -/
theorem exists_real_rowMaxP (s : Fin 1024) : ∃ r : ℝ, rowMaxP q k q' k' s = (r : EReal) := by
  rw [← rowMaxF_eq]
  unfold rowMaxF
  rw [scoreF_eq, ofBits_neg_inf_f32]
  have hne_bot : (Finset.univ : Finset (Fin 1024)).fold max (⊥ : EReal) (fun t => scoreP q k q' k' s t) ≠ ⊥ := by
    obtain ⟨r0, h0⟩ := exists_real_scoreP q k q' k' hq hk hq' hk' s 0
    have hle : scoreP q k q' k' s 0
        ≤ (Finset.univ : Finset (Fin 1024)).fold max (⊥ : EReal) (fun t => scoreP q k q' k' s t) :=
      (Finset.le_fold_max _).mpr (Or.inr ⟨0, Finset.mem_univ _, le_rfl⟩)
    intro hbot
    rw [hbot, h0] at hle
    exact absurd (le_bot_iff.mp hle) (EReal.coe_ne_bot r0)
  have hne_top : (Finset.univ : Finset (Fin 1024)).fold max (⊥ : EReal) (fun t => scoreP q k q' k' s t) ≠ ⊤ := by
    refine ne_of_lt ((Finset.fold_max_lt _).mpr ⟨bot_lt_top, fun t _ => ?_⟩)
    obtain ⟨r, h⟩ := exists_real_scoreP q k q' k' hq hk hq' hk' s t
    rw [h]; exact EReal.coe_lt_top r
  exact ⟨_, (EReal.coe_toReal hne_top hne_bot).symm⟩

/-- With real queries and keys every exponential is positive. -/
theorem expP_pos (s t : Fin 1024) : 0 < expP q k q' k' s t := by
  obtain ⟨x, hx⟩ := exists_real_scoreP q k q' k' hq hk hq' hk' s t
  obtain ⟨m, hm⟩ := exists_real_rowMaxP q k q' k' hq hk hq' hk' s
  unfold expP
  rw [hx, hm, ← EReal.coe_sub, Ideal.exp_coe]
  exact EReal.coe_pos.mpr (Real.exp_pos _)

/-- With real queries and keys a row's sum of exponentials is not zero. -/
theorem rowSumF_ne_zero (s : Fin 1024) : rowSumF q k q' k' s ≠ 0 := by
  unfold rowSumF
  rw [expF_eq]
  have h0 : expP q k q' k' s 0 ≤ ∑ t : Fin 1024, expP q k q' k' s t :=
    Finset.single_le_sum (fun t _ => le_of_lt (expP_pos q k q' k' hq hk hq' hk' s t)) (Finset.mem_univ 0)
  exact ne_of_gt (lt_of_lt_of_le (expP_pos q k q' k' hq hk hq' hk' s 0) h0)

/-- With real queries and keys the exponential times the reciprocal of the row sum is the quotient. -/
theorem weightF_eq (s t : Fin 1024) : weightF q k q' k' s t = weightP q k q' k' s t := by
  unfold weightF weightP
  rw [Ideal.ofBits_one_f32, Ideal.mul_one_div (rowSumF_ne_zero q k q' k' hq hk hq' hk' s), expF_eq, rowSumP_eq]

end Real

/-! ## The outputs -/

/-- The first 64 features of the fused output are the first stream's plain output. -/
theorem outF_fst (q k v q' k' v' : Head)
    (hq : ∀ s d, ∃ r : ℝ, q s d = (r : EReal)) (hk : ∀ s d, ∃ r : ℝ, k s d = (r : EReal))
    (hq' : ∀ s d, ∃ r : ℝ, q' s d = (r : EReal)) (hk' : ∀ s d, ∃ r : ℝ, k' s d = (r : EReal))
    (s : Fin 1024) (e : Fin 64) :
    outF q k v q' k' v' s ⟨e.val, by have := e.isLt; omega⟩ = outP q k q' k' v s e := by
  unfold outF outP
  refine Finset.sum_congr rfl fun t _ => ?_
  rw [weightF_eq q k q' k' hq hk hq' hk' s t, side_fst]

/-- The last 64 features of the fused output are the second stream's plain output. -/
theorem outF_snd (q k v q' k' v' : Head)
    (hq : ∀ s d, ∃ r : ℝ, q s d = (r : EReal)) (hk : ∀ s d, ∃ r : ℝ, k s d = (r : EReal))
    (hq' : ∀ s d, ∃ r : ℝ, q' s d = (r : EReal)) (hk' : ∀ s d, ∃ r : ℝ, k' s d = (r : EReal))
    (s : Fin 1024) (e : Fin 64) :
    outF q k v q' k' v' s ⟨64 + e.val, by have := e.isLt; omega⟩ = outP q k q' k' v' s e := by
  unfold outF outP
  refine Finset.sum_congr rfl fun t _ => ?_
  rw [weightF_eq q k q' k' hq hk hq' hk' s t, side_snd]

end Cert.TwoStream

end
-- ==== Proof.Finite.lean ====
/-
  From the precondition to real numbers: where every entry of an array has absolute value below +∞, every entry is
  a real number. Only the queries and keys (arguments 0, 1, 3, 4) are needed.
-/
import proofs.«404403_j7722351198463_3_alg».proof.Pre_finite_inputs
import Idealize.ShloMosaic.PureOps.Ideal
import Idealize.ShloMosaic.Lib.ReduceAll

noncomputable section

namespace Cert.Finite

open Idealize.ShloMosaic

/-- The scalar shape has one index. -/
instance : Subsingleton Cert.Pre_finite_inputs.S_.Idx := ⟨fun _ _ => funext fun d => d.elim0⟩

/-- The pattern 0x7F800000 denotes +∞. -/
theorem ofBits_pos_inf : Ideal.ofBits .f32 0x7F800000#32 = (⊤ : EReal) := by simp [Ideal.ofBits, Ideal.ieee]

/-- An extended real whose absolute value max a (−a) is below +∞ is a real number. -/
theorem real_of_abs_lt_top (a : EReal) (ha : max a (-a) < ⊤) : ∃ r : ℝ, a = (r : EReal) := by
  induction a using EReal.rec with
  | bot => simp at ha
  | coe r => exact ⟨r, rfl⟩
  | top => simp at ha

/-- The element fact: the ordered comparison |a| < +∞ came out 1, so a is a real number. -/
theorem real_of_cmp (a : EReal)
    (h : Ideal.cmp .olt (max a (-a)) (Ideal.ofBits .f32 0x7F800000#32) = 1#1) : ∃ r : ℝ, a = (r : EReal) := by
  rw [ofBits_pos_inf] at h
  by_cases hlt : max a (-a) < ⊤
  · exact real_of_abs_lt_top a hlt
  · exfalso
    unfold Ideal.cmp at h
    simp [hlt] at h

/-- One array: where the reduction by "and" of |x| < +∞ over every axis came out 1, every entry of x is real. -/
theorem real_of_all [Cert.Pre_finite_inputs.Facts] (x : FVec Ideal Cert.Pre_finite_inputs.S4x16x1024x64 .f32)
    (j : Cert.Pre_finite_inputs.S_.Idx)
    (e : Host.reduce IntOp.andi
          (cmpf .olt (Host.absf x)
            (broadcastInDim Cert.Pre_finite_inputs.S4x16x1024x64 ![] Cert.Pre_finite_inputs.Facts.bcast_S_S4x16x1024x64
              (constant Cert.Pre_finite_inputs.S_ .f32 0x7F800000#32)))
          (constantI Cert.Pre_finite_inputs.S_ 1 1#1)
          Cert.Pre_finite_inputs.Facts.reducesTo_S4x16x1024x64_S_d0_1_2_3 Cert.Pre_finite_inputs.Facts.h_S_ j = 1#1)
    (i : Cert.Pre_finite_inputs.S4x16x1024x64.Idx) : ∃ r : ℝ, x i = (r : EReal) := by
  have hi := Host.reduce_andi_all _ _ _ _ j e i
  exact real_of_cmp (x i) hi

/-- The precondition all ones makes every entry of the four query and key arrays a real number. -/
theorem real_of_finite [Cert.Pre_finite_inputs.Facts]
    (x0 x1 x2 x3 x4 x5 : FVec Ideal Cert.Pre_finite_inputs.S4x16x1024x64 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal))
      ∧ (∀ i, ∃ r : ℝ, x3 i = (r : EReal)) ∧ (∀ i, ∃ r : ℝ, x4 i = (r : EReal)) := by
  have e := congrFun h (fun a => a.elim0)
  unfold Cert.Pre_finite_inputs.fn Cert.Pre_finite_inputs.fn_part1 at e
  dsimp only at e
  simp only [andi, IntOp.andi_eq_one] at e
  obtain ⟨⟨⟨⟨⟨h0, h1⟩, -⟩, h3⟩, h4⟩, -⟩ := e
  exact ⟨real_of_all x0 _ h0, real_of_all x1 _ h1, real_of_all x3 _ h3, real_of_all x4 _ h4⟩

end Cert.Finite

end
-- ==== Proof.lean ====
/-
  Two-stream attention: a kernel that fuses the two streams against the plain two-stream reference, over the
  extended reals.

  The reference adds the two streams' query–key products, scales by 1/2 and by 1/8, takes the softmax of each row
  (dividing by the row sum) and applies the weights to each stream's values. The kernel merges batch and head into
  64 heads, handles two heads at each of 32 grid points, puts the two streams' features side by side, takes ONE
  product over 128 features scaled by 1/16, multiplies by the reciprocal of the row sum, and applies the weights to
  the side-by-side values; the two results are the first and the last 64 features of what it stores.

  The two are one function where the queries and keys are finite (Proof/Algebra.lean; finiteness is what makes the
  row sum a positive real, so that multiplying by its reciprocal is dividing by it). The kernel's value is read off
  its frame run (Proof/KernelPayload.lean, Proof/KernelValue.lean), the reference's off its run one operation at a
  time (Proof/RefRead.lean), and finiteness off the precondition (Proof/Finite.lean). Nothing was rewritten by the
  idealization, so the preservation claim is trivial.
-/
import proofs.«404403_j7722351198463_3_alg».proof.Defs
import proofs.«404403_j7722351198463_3_alg».proof.Proof.Gen.Kernel
import proofs.«404403_j7722351198463_3_alg».proof.Proof.Gen.Kernel.Skeleton
import proofs.«404403_j7722351198463_3_alg».proof.Proof.Gen.Kernel.Launch
import proofs.«404403_j7722351198463_3_alg».proof.Proof.Gen.Kernel.Points
import proofs.«404403_j7722351198463_3_alg».proof.Proof.Gen.Kernel.Frame
import proofs.«404403_j7722351198463_3_alg».proof.Proof.Gen.KernelIdeal
import proofs.«404403_j7722351198463_3_alg».proof.Proof.Gen.KernelIdeal.Skeleton
import proofs.«404403_j7722351198463_3_alg».proof.Proof.Gen.KernelIdeal.Launch
import proofs.«404403_j7722351198463_3_alg».proof.Proof.Gen.KernelIdeal.Points
import proofs.«404403_j7722351198463_3_alg».proof.Proof.Gen.KernelIdeal.Frame
import proofs.«404403_j7722351198463_3_alg».proof.Proof.Gen.ReferenceIdeal
import proofs.«404403_j7722351198463_3_alg».proof.Proof.Gen.Pre_finite_inputs
import proofs.«404403_j7722351198463_3_alg».proof.Proof.Gen.ReferenceIdeal.Run
import proofs.«404403_j7722351198463_3_alg».proof.Proof.Gen.ReferenceIdeal.Read
import proofs.«404403_j7722351198463_3_alg».proof.Proof.KernelValue
import proofs.«404403_j7722351198463_3_alg».proof.Proof.RefRead
import proofs.«404403_j7722351198463_3_alg».proof.Proof.Algebra
import proofs.«404403_j7722351198463_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.TwoStream

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the same two results: the fused form of each head of the arguments, which for
    finite queries and keys is the plain form the reference computes. -/
theorem algebraic : Cert.algebraic_KernelIdeal_ReferenceIdeal := by
  intro m ρ m' ρ' hpre hagree
  refine ⟨fun c => Cert.KernelValue.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.KernelValue.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨r0, r1, r3, r4⟩ := Cert.Finite.real_of_finite _ _ _ _ _ _ (hpre c)
  refine ⟨(h c).1.trans ?_, (h c).2.1.trans ?_, (h c).2.2⟩
  · refine (Cert.ReferenceIdeal.Read.val_main_v18_eq _ _ _ _ _).trans ?_
    rw [a0, a1, a2, a3, a4]
    funext i
    obtain ⟨b, hd, s, e, rfl⟩ : ∃ (b : Fin 4) (hd : Fin 16) (s : Fin 1024) (e : Fin 64), i = ix4 b hd s e := ⟨i 0, i 1, i 2, i 3, eq_ix4 i⟩
    rw [Cert.RefValue.out1_apply]
    exact (outF_fst _ _ _ _ _ (head4 (m ((c.tc : Thread Cert.KernelIdeal.nD Cert.KernelIdeal.τ).loc Cert.KernelIdeal.main_arg5)) b hd) (fun s d => r0 _) (fun s d => r1 _) (fun s d => r3 _) (fun s d => r4 _) s e).symm
  · refine (Cert.ReferenceIdeal.Read.val_main_v19_eq _ _ _ _ _).trans ?_
    rw [a0, a1, a3, a4, a5]
    funext i
    obtain ⟨b, hd, s, e, rfl⟩ : ∃ (b : Fin 4) (hd : Fin 16) (s : Fin 1024) (e : Fin 64), i = ix4 b hd s e := ⟨i 0, i 1, i 2, i 3, eq_ix4 i⟩
    rw [Cert.RefValue.out2_apply]
    exact (outF_snd _ _ (head4 (m ((c.tc : Thread Cert.KernelIdeal.nD Cert.KernelIdeal.τ).loc Cert.KernelIdeal.main_arg2)) b hd) _ _ _ (fun s d => r0 _) (fun s d => r1 _) (fun s d => r3 _) (fun s d => r4 _) s e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
